-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x9 : Shape := ⟨2, ![524288, 9]⟩
abbrev S524288x64 : Shape := ⟨2, ![524288, 64]⟩
abbrev S64x128 : Shape := ⟨2, ![64, 128]⟩
abbrev S128 : Shape := ⟨1, ![128]⟩
abbrev S128x128 : Shape := ⟨2, ![128, 128]⟩
abbrev S128x12 : Shape := ⟨2, ![128, 12]⟩
abbrev S12 : Shape := ⟨1, ![12]⟩
abbrev S_ : Shape := ⟨0, ![]⟩

class Facts : Prop where
  bcast_S_S524288x9 : S_.BroadcastsInDim S524288x9 (![] : Fin 0 → Fin S524288x9.rank)
  reducesTo_S524288x9_S_d0_1 : S524288x9.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S12 .f32) (main_v33 : IVec S_ 1) : IVec S_ 1 :=
  let main_v34 : FVec F S12 .f32 := Host.absf main_arg7
  let main_cst_12 : FVec F S_ .f32 := constant S_ .f32 0x7F800000#32
  let main_v35 : FVec F S12 .f32 := broadcastInDim S12 ![] bcast_S_S12 main_cst_12
  let main_v36 : IVec S12 1 := cmpf .olt main_v34 main_v35
  let main_c_13 : IVec S_ 1 := constantI S_ 1 1#1
  let main_v37 : IVec S_ 1 := (fun x v => Host.reduce IntOp.andi x v reducesTo_S12_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x12 .f32) (main_arg7 : FVec F S12 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x12 .f32 := Host.absf main_arg6
  let main_cst_10 : FVec F S_ .f32 := constant S_ .f32 0x7F800000#32
  let main_v30 : FVec F S128x12 .f32 := broadcastInDim S128x12 ![] bcast_S_S128x12 main_cst_10
  let main_v31 : IVec S128x12 1 := cmpf .olt main_v29 main_v30
  let main_c_11 : IVec S_ 1 := constantI S_ 1 1#1
  let main_v32 : IVec S_ 1 := (fun x v => Host.reduce IntOp.andi x v reducesTo_S128x12_S_d0_1 h_S_) main_v31 main_c_11
  let main_v33 : IVec S_ 1 := andi main_v28 main_v32
  fn_part2 (F := F) main_arg7 main_v33

def fn {F : FTy → Type} [FloatOps F] (main_arg0 : FVec F S524288x9 .f32) (main_arg1 : FVec F S524288x64 .f32) (main_arg2 : FVec F S64x128 .f32) (main_arg3 : FVec F S128 .f32) (main_arg4 : FVec F S128x128 .f32) (main_arg5 : FVec F S128 .f32) (main_arg6 : FVec F S128x12 .f32) (main_arg7 : FVec F S12 .f32) : IVec S_ 1 :=
  let main_v0 : FVec F S524288x9 .f32 := Host.absf main_arg0
  let main_cst : FVec F S_ .f32 := constant S_ .f32 0x7F800000#32
  let main_v1 : FVec F S524288x9 .f32 := broadcastInDim S524288x9 ![] bcast_S_S524288x9 main_cst
  let main_v2 : IVec S524288x9 1 := cmpf .olt main_v0 main_v1
  let main_c : IVec S_ 1 := constantI S_ 1 1#1
  let main_v3 : IVec S_ 1 := (fun x v => Host.reduce IntOp.andi x v reducesTo_S524288x9_S_d0_1 h_S_) main_v2 main_c
  let main_v4 : FVec F S524288x64 .f32 := Host.absf main_arg1
  let main_cst_0 : FVec F S_ .f32 := constant S_ .f32 0x7F800000#32
  let main_v5 : FVec F S524288x64 .f32 := broadcastInDim S524288x64 ![] bcast_S_S524288x64 main_cst_0
  let main_v6 : IVec S524288x64 1 := cmpf .olt main_v4 main_v5
  let main_c_1 : IVec S_ 1 := constantI S_ 1 1#1
  let main_v7 : IVec S_ 1 := (fun x v => Host.reduce IntOp.andi x v reducesTo_S524288x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S524288x9 : Shape := ⟨2, ![524288, 9]⟩
abbrev S524288x64 : Shape := ⟨2, ![524288, 64]⟩
abbrev S64x128 : Shape := ⟨2, ![64, 128]⟩
abbrev S128 : Shape := ⟨1, ![128]⟩
abbrev S128x128 : Shape := ⟨2, ![128, 128]⟩
abbrev S128x12 : Shape := ⟨2, ![128, 12]⟩
abbrev S12 : Shape := ⟨1, ![12]⟩
abbrev S1x128 : Shape := ⟨2, ![1, 128]⟩
abbrev S1x12 : Shape := ⟨2, ![1, 12]⟩
abbrev S524288x3 : Shape := ⟨2, ![524288, 3]⟩
abbrev S4096x9 : Shape := ⟨2, ![4096, 9]⟩
abbrev S4096x64 : Shape := ⟨2, ![4096, 64]⟩
abbrev S4096x3 : Shape := ⟨2, ![4096, 3]⟩
abbrev S4096x128 : Shape := ⟨2, ![4096, 128]⟩
abbrev S4096x12 : Shape := ⟨2, ![4096, 12]⟩
abbrev S4096x6 : Shape := ⟨2, ![4096, 6]⟩
abbrev S4096x1 : Shape := ⟨2, ![4096, 1]⟩
abbrev S4096x2 : Shape := ⟨2, ![4096, 2]⟩
abbrev S4096 : Shape := ⟨1, ![4096]⟩

abbrev nBuf : Space → Nat
  | .hbm => 12
  | .vmem => 12
  | .smem => 0
  | _ => 0

abbrev bufTy : (tb : Table) → Fin (tcTables nBuf tb) → BufTy
  | .hbm, ⟨0, _⟩ => ⟨S524288x9, .f32⟩
  | .hbm, ⟨1, _⟩ => ⟨S524288x64, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x12, .f32⟩
  | .hbm, ⟨7, _⟩ => ⟨S12, .f32⟩
  | .hbm, ⟨8, _⟩ => ⟨S1x128, .f32⟩
  | .hbm, ⟨9, _⟩ => ⟨S1x128, .f32⟩
  | .hbm, ⟨10, _⟩ => ⟨S1x12, .f32⟩
  | .hbm, ⟨11, _⟩ => ⟨S524288x3, .f32⟩
  | .local _ .vmem, ⟨0, _⟩ => ⟨S4096x9, .f32⟩
  | .local _ .vmem, ⟨1, _⟩ => ⟨S4096x9, .f32⟩
  | .local _ .vmem, ⟨2, _⟩ => ⟨S4096x64, .f32⟩
  | .local _ .vmem, ⟨3, _⟩ => ⟨S4096x64, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x12, .f32⟩
  | .local _ .vmem, ⟨9, _⟩ => ⟨S1x12, .f32⟩
  | .local _ .vmem, ⟨10, _⟩ => ⟨S4096x3, .f32⟩
  | .local _ .vmem, ⟨11, _⟩ => ⟨S4096x3, .f32⟩
  | _, _ => ⟨S524288x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S128_S1x128 : S128.ShapeCasts S1x128
  shapeCasts_S12_S1x12 : S12.ShapeCasts S1x12
  inb_S4096x9_S4096x9_0_0 : ∀ a, (![0, 0] : Fin 2 → Nat) a + S4096x9.size a ≤ S4096x9.size a
  h_S4096x9 : 0 < S4096x9.numel
  inb_S4096x64_S4096x64_0_0 : ∀ a, (![0, 0] : Fin 2 → Nat) a + S4096x64.size a ≤ S4096x64.size a
  h_S4096x64 : 0 < S4096x64.numel
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x12_S128x12_0_0 : ∀ a, (![0, 0] : Fin 2 → Nat) a + S128x12.size a ≤ S128x12.size a
  h_S128x12 : 0 < S128x12.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x128_S4096x128 : S1x128.Broadcasts S4096x128
  broadcasts_S1x12_S4096x12 : S1x12.Broadcasts S4096x12
  slices_S4096x12_o0_0_S4096x6 : S4096x12.Slices ![0, 0] S4096x6
  slices_S4096x12_o0_6_S4096x1 : S4096x12.Slices ![0, 6] S4096x1
  slices_S4096x12_o0_7_S4096x2 : S4096x12.Slices ![0, 7] S4096x2
  slices_S4096x12_o0_9_S4096x3 : S4096x12.Slices ![0, 9] S4096x3
  concatenates_S4096x6_S4096x1_S4096x2_S4096x3_S4096x12_d1 : Shape.Concatenates [S4096x6, S4096x1, S4096x2, S4096x3] S4096x12 1
  slices_S4096x12_o0_0_S4096x9 : S4096x12.Slices ![0, 0] S4096x9
  slices_S4096x9_o0_0_S4096x3 : S4096x9.Slices ![0, 0] S4096x3
  reduces_S4096x3_S4096 : S4096x3.Reduces [1] S4096
  shapeCasts_S4096_S4096x1 : S4096.ShapeCasts S4096x1
  slices_S4096x9_o0_3_S4096x3 : S4096x9.Slices ![0, 3] S4096x3
  slices_S4096x9_o0_6_S4096x3 : S4096x9.Slices ![0, 6] S4096x3
  concatenates_S4096x1_S4096x1_S4096x1_S4096x3_d1 : Shape.Concatenates [S4096x1, S4096x1, S4096x1] S4096x3 1
  inb_S4096x3_S4096x3_0_0 : ∀ a, (![0, 0] : Fin 2 → Nat) a + S4096x3.size a ≤ S4096x3.size a
  h_S4096x3 : 0 < S4096x3.numel
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S4096x128_S128x12_S4096x12_1_0_0_1_n_n_wf : DotDims.WF S4096x128 S128x12 S4096x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x9.size a ≤ S524288x9.size a
  hwx0_0 : ∀ i : grid0.Coords, EltTy.bits .f32 = 32 ∨ (Rect.block (s := S524288x9) S4096x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S524288x64.size a
  hwx0_1 : ∀ i : grid0.Coords, EltTy.bits .f32 = 32 ∨ (Rect.block (s := S524288x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x12.size a ≤ S128x12.size a
  hwx0_6 : ∀ i : grid0.Coords, EltTy.bits .f32 = 32 ∨ (Rect.block (s := S128x12) S128x12.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x12.size a ≤ S1x12.size a
  hwx0_7 : ∀ i : grid0.Coords, EltTy.bits .f32 = 32 ∨ (Rect.block (s := S1x12) S1x12.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x3.size a ≤ S524288x3.size a
  hwx0_8 : ∀ i : grid0.Coords, EltTy.bits .f32 = 32 ∨ (Rect.block (s := S524288x3) S4096x3.size (cc0_transform_8 i) (hinb0_8 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x12_S4096x12_1_0_0_1_n_n : DotDims S4096x128 S128x12 S4096x12 where
  lhsContracting := [1]
  rhsContracting := [0]
  lhsNonContracting := [0]
  rhsNonContracting := [1]
  lhsBatch := []
  rhsBatch := []
  wf := dot_S4096x128_S128x12_S4096x12_1_0_0_1_n_n_wf

abbrev win0_0 : Pipeline.Window sig grid0 :=
  Pipeline.Window.ofSpec (Memref.whole main_arg0) S4096x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x12.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x12.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S4096x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S524288x9 : Shape := ⟨2, ![524288, 9]⟩
abbrev S524288x64 : Shape := ⟨2, ![524288, 64]⟩
abbrev S64x128 : Shape := ⟨2, ![64, 128]⟩
abbrev S128 : Shape := ⟨1, ![128]⟩
abbrev S128x128 : Shape := ⟨2, ![128, 128]⟩
abbrev S128x12 : Shape := ⟨2, ![128, 12]⟩
abbrev S12 : Shape := ⟨1, ![12]⟩
abbrev S524288x128 : Shape := ⟨2, ![524288, 128]⟩
abbrev S1x128 : Shape := ⟨2, ![1, 128]⟩
abbrev S_ : Shape := ⟨0, ![]⟩
abbrev S524288x12 : Shape := ⟨2, ![524288, 12]⟩
abbrev S1x12 : Shape := ⟨2, ![1, 12]⟩
abbrev S524288x6 : Shape := ⟨2, ![524288, 6]⟩
abbrev S524288x1 : Shape := ⟨2, ![524288, 1]⟩
abbrev S524288x2 : Shape := ⟨2, ![524288, 2]⟩
abbrev S524288x3 : Shape := ⟨2, ![524288, 3]⟩
abbrev S524288 : Shape := ⟨1, ![524288]⟩

abbrev nBuf : Space → Nat
  | .hbm => 58
  | .vmem => 0
  | .smem => 0
  | _ => 0

abbrev bufTy : (tb : Table) → Fin (tcTables nBuf tb) → BufTy
  | .hbm, ⟨0, _⟩ => ⟨S524288x9, .f32⟩
  | .hbm, ⟨1, _⟩ => ⟨S524288x64, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x12, .f32⟩
  | .hbm, ⟨7, _⟩ => ⟨S12, .f32⟩
  | .hbm, ⟨8, _⟩ => ⟨S524288x128, .f32⟩
  | .hbm, ⟨9, _⟩ => ⟨S1x128, .f32⟩
  | .hbm, ⟨10, _⟩ => ⟨S524288x128, .f32⟩
  | .hbm, ⟨11, _⟩ => ⟨S524288x128, .f32⟩
  | .hbm, ⟨12, _⟩ => ⟨S_, .f32⟩
  | .hbm, ⟨13, _⟩ => ⟨S524288x128, .f32⟩
  | .hbm, ⟨14, _⟩ => ⟨S524288x128, .f32⟩
  | .hbm, ⟨15, _⟩ => ⟨S524288x128, .f32⟩
  | .hbm, ⟨16, _⟩ => ⟨S1x128, .f32⟩
  | .hbm, ⟨17, _⟩ => ⟨S524288x128, .f32⟩
  | .hbm, ⟨18, _⟩ => ⟨S524288x128, .f32⟩
  | .hbm, ⟨19, _⟩ => ⟨S_, .f32⟩
  | .hbm, ⟨20, _⟩ => ⟨S524288x128, .f32⟩
  | .hbm, ⟨21, _⟩ => ⟨S524288x128, .f32⟩
  | .hbm, ⟨22, _⟩ => ⟨S524288x12, .f32⟩
  | .hbm, ⟨23, _⟩ => ⟨S1x12, .f32⟩
  | .hbm, ⟨24, _⟩ => ⟨S524288x12, .f32⟩
  | .hbm, ⟨25, _⟩ => ⟨S524288x12, .f32⟩
  | .hbm, ⟨26, _⟩ => ⟨S524288x6, .f32⟩
  | .hbm, ⟨27, _⟩ => ⟨S524288x6, .f32⟩
  | .hbm, ⟨28, _⟩ => ⟨S_, .f32⟩
  | .hbm, ⟨29, _⟩ => ⟨S524288x6, .f32⟩
  | .hbm, ⟨30, _⟩ => ⟨S524288x6, .f32⟩
  | .hbm, ⟨31, _⟩ => ⟨S524288x6, .f32⟩
  | .hbm, ⟨32, _⟩ => ⟨S524288x1, .f32⟩
  | .hbm, ⟨33, _⟩ => ⟨S524288x2, .f32⟩
  | .hbm, ⟨34, _⟩ => ⟨S524288x2, .f32⟩
  | .hbm, ⟨35, _⟩ => ⟨S_, .f32⟩
  | .hbm, ⟨36, _⟩ => ⟨S524288x2, .f32⟩
  | .hbm, ⟨37, _⟩ => ⟨S524288x2, .f32⟩
  | .hbm, ⟨38, _⟩ => ⟨S524288x2, .f32⟩
  | .hbm, ⟨39, _⟩ => ⟨S524288x3, .f32⟩
  | .hbm, ⟨40, _⟩ => ⟨S524288x12, .f32⟩
  | .hbm, ⟨41, _⟩ => ⟨S524288x9, .f32⟩
  | .hbm, ⟨42, _⟩ => ⟨S524288x3, .f32⟩
  | .hbm, ⟨43, _⟩ => ⟨S524288x9, .f32⟩
  | .hbm, ⟨44, _⟩ => ⟨S524288x3, .f32⟩
  | .hbm, ⟨45, _⟩ => ⟨S_, .f32⟩
  | .hbm, ⟨46, _⟩ => ⟨S524288, .f32⟩
  | .hbm, ⟨47, _⟩ => ⟨S524288x3, .f32⟩
  | .hbm, ⟨48, _⟩ => ⟨S_, .f32⟩
  | .hbm, ⟨49, _⟩ => ⟨S524288, .f32⟩
  | .hbm, ⟨50, _⟩ => ⟨S524288x3, .f32⟩
  | .hbm, ⟨51, _⟩ => ⟨S_, .f32⟩
  | .hbm, ⟨52, _⟩ => ⟨S524288, .f32⟩
  | .hbm, ⟨53, _⟩ => ⟨S524288x1, .f32⟩
  | .hbm, ⟨54, _⟩ => ⟨S524288x1, .f32⟩
  | .hbm, ⟨55, _⟩ => ⟨S524288x1, .f32⟩
  | .hbm, ⟨56, _⟩ => ⟨S524288x3, .f32⟩
  | .hbm, ⟨57, _⟩ => ⟨S524288x3, .f32⟩
  | _, _ => ⟨S524288x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call2_cst : Ref sig .tc := ⟨.hbm, 28, rfl⟩
abbrev main_call2_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call3_cst : Ref sig .tc := ⟨.hbm, 35, rfl⟩
abbrev main_call3_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_cst_0 : Ref sig .tc := ⟨.hbm, 48, rfl⟩
abbrev main_v31 : Ref sig .tc := ⟨.hbm, 49, rfl⟩
abbrev main_v32 : Ref sig .tc := ⟨.hbm, 50, rfl⟩
abbrev main_cst_1 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  bcast_S12_S1x12_1 : S12.BroadcastsInDim S1x12 (![1] : Fin 1 → Fin S1x12.rank)
  bcast_S1x12_S524288x12_0_1 : S1x12.BroadcastsInDim S524288x12 (![0, 1] : Fin 2 → Fin S524288x12.rank)
  slices_S524288x12_S524288x6_0_0 : S524288x12.Slices ![0, 0] S524288x6
  bcast_S_S524288x6 : S_.BroadcastsInDim S524288x6 (![] : Fin 0 → Fin S524288x6.rank)
  slices_S524288x12_S524288x1_0_6 : S524288x12.Slices ![0, 6] S524288x1
  slices_S524288x12_S524288x2_0_7 : S524288x12.Slices ![0, 7] S524288x2
  bcast_S_S524288x2 : S_.BroadcastsInDim S524288x2 (![] : Fin 0 → Fin S524288x2.rank)
  slices_S524288x12_S524288x3_0_9 : S524288x12.Slices ![0, 9] S524288x3
  concatenates_S524288x6_S524288x1_S524288x2_S524288x3_S524288x12_d1 : Shape.Concatenates [S524288x6, S524288x1, S524288x2, S524288x3] S524288x12 1
  slices_S524288x12_S524288x9_0_0 : S524288x12.Slices ![0, 0] S524288x9
  slices_S524288x9_S524288x3_0_0 : S524288x9.Slices ![0, 0] S524288x3
  reducesTo_S524288x3_S524288_d1 : S524288x3.ReducesTo [1] S524288
  h_S_ : 0 < S_.numel
  slices_S524288x9_S524288x3_0_3 : S524288x9.Slices ![0, 3] S524288x3
  slices_S524288x9_S524288x3_0_6 : S524288x9.Slices ![0, 6] S524288x3
  bcast_S524288_S524288x1_0 : S524288.BroadcastsInDim S524288x1 (![0] : Fin 1 → Fin S524288x1.rank)
  concatenates_S524288x1_S524288x1_S524288x1_S524288x3_d1 : Shape.Concatenates [S524288x1, S524288x1, S524288x1] S524288x3 1
  dot_S524288x64_S64x128_S524288x128_1_0_0_1_n_n_wf : DotDims.WF S524288x64 S64x128 S524288x128 [1] [0] [0] [1] [] []
  dot_S524288x128_S128x128_S524288x128_1_0_0_1_n_n_wf : DotDims.WF S524288x128 S128x128 S524288x128 [1] [0] [0] [1] [] []
  dot_S524288x128_S128x12_S524288x12_1_0_0_1_n_n_wf : DotDims.WF S524288x128 S128x12 S524288x12 [1] [0] [0] [1] [] []

variable [Facts₀]

def dot_S524288x64_S64x128_S524288x128_1_0_0_1_n_n : DotDims S524288x64 S64x128 S524288x128 where
  lhsContracting := [1]
  rhsContracting := [0]
  lhsNonContracting := [0]
  rhsNonContracting := [1]
  lhsBatch := []
  rhsBatch := []
  wf := dot_S524288x64_S64x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def dot_S524288x128_S128x12_S524288x12_1_0_0_1_n_n : DotDims S524288x128 S128x12 S524288x12 where
  lhsContracting := [1]
  rhsContracting := [0]
  lhsNonContracting := [0]
  rhsNonContracting := [1]
  lhsBatch := []
  rhsBatch := []
  wf := dot_S524288x128_S128x12_S524288x12_1_0_0_1_n_n_wf

class Facts : Prop extends Facts₀ where

variable [Facts]
-- ==== Proof.Whole.lean ====
/-
  The plain program's result as a function of its eight argument arrays, layer by layer, over all 524288 rows:
  two hidden layers `relu (H · W + c)`, the twelve coefficients `H · W3 + c3`, the sign constraint on their
  columns, and the three logits of a row's nine features against its constrained coefficients plus intercepts.
  Each layer is written with exactly the host operations the program applies, so the program's composed result
  term is `wholeLogits` of its arguments by unfolding alone.
-/
import proofs.«120099_j45483703665013_1_alg».proof.Proof.Gen.ReferenceIdeal
import Idealize.ShloMosaic.PureOps.Ideal

noncomputable section

namespace Cert.Taste

open Idealize.ShloMosaic Cert.ReferenceIdeal Cert.ReferenceIdeal.Gen

variable {F : FTy → Type} [FloatOps F]

/-- The first hidden layer: `relu (Z · W1 + c1)`, the bias broadcast over the rows. -/
def hidden1 (Z : FVec F S524288x64 .f32) (W1 : FVec F S64x128 .f32) (c1 : FVec F S128 .f32) :
    FVec F S524288x128 .f32 :=
  maximumf (addf (Host.dotGeneral dot_S524288x64_S64x128_S524288x128_1_0_0_1_n_n none Z W1)
      (broadcastInDim S524288x128 ![0, 1] bcast_S1x128_S524288x128_0_1 (broadcastInDim S1x128 ![1] bcast_S128_S1x128_1 c1)))
    (broadcastInDim S524288x128 ![] bcast_S_S524288x128 (constant (F := F) S_ .f32 0x00000000#32))

/-- The second hidden layer: `relu (H · W2 + c2)`. -/
def hidden2 (H : FVec F S524288x128 .f32) (W2 : FVec F S128x128 .f32) (c2 : FVec F S128 .f32) :
    FVec F S524288x128 .f32 :=
  maximumf (addf (Host.dotGeneral dot_S524288x128_S128x128_S524288x128_1_0_0_1_n_n none H W2)
      (broadcastInDim S524288x128 ![0, 1] bcast_S1x128_S524288x128_0_1 (broadcastInDim S1x128 ![1] bcast_S128_S1x128_1 c2)))
    (broadcastInDim S524288x128 ![] bcast_S_S524288x128 (constant (F := F) S_ .f32 0x00000000#32))

/-- The twelve coefficients of every row: `H · W3 + c3`. -/
def coeffs (H : FVec F S524288x128 .f32) (W3 : FVec F S128x12 .f32) (c3 : FVec F S12 .f32) :
    FVec F S524288x12 .f32 :=
  addf (Host.dotGeneral dot_S524288x128_S128x12_S524288x12_1_0_0_1_n_n none H W3)
    (broadcastInDim S524288x12 ![0, 1] bcast_S1x12_S524288x12_0_1 (broadcastInDim S1x12 ![1] bcast_S12_S1x12_1 c3))

/-- The sign constraint: columns 0-5 and 7-8 as `-(relu (-·))`, columns 6 and 9-11 kept, side by side. -/
def constrainedCoeffs (B : FVec F S524288x12 .f32) : FVec F S524288x12 .f32 :=
  concatenate S524288x12 1
    [⟨S524288x6, Host.negf (maximumf (Host.negf (extractStridedSlice S524288x6 ![0, 0] B slices_S524288x12_S524288x6_0_0))
        (broadcastInDim S524288x6 ![] bcast_S_S524288x6 (constant (F := F) S_ .f32 0x00000000#32)))⟩,
     ⟨S524288x1, extractStridedSlice S524288x1 ![0, 6] B slices_S524288x12_S524288x1_0_6⟩,
     ⟨S524288x2, Host.negf (maximumf (Host.negf (extractStridedSlice S524288x2 ![0, 7] B slices_S524288x12_S524288x2_0_7))
        (broadcastInDim S524288x2 ![] bcast_S_S524288x2 (constant (F := F) S_ .f32 0x00000000#32)))⟩,
     ⟨S524288x3, extractStridedSlice S524288x3 ![0, 9] B slices_S524288x12_S524288x3_0_9⟩]
    concatenates_S524288x6_S524288x1_S524288x2_S524288x3_S524288x12_d1

/-- The three logits of every row: each segment's sum of feature times constrained coefficient, as a column, side by
    side, plus the intercept columns. -/
def logits (X : FVec F S524288x9 .f32) (CB : FVec F S524288x12 .f32) : FVec F S524288x3 .f32 :=
  addf (concatenate S524288x3 1
      [⟨S524288x1, broadcastInDim S524288x1 ![0] bcast_S524288_S524288x1_0 (Host.reduceAdd (extractStridedSlice S524288x3 ![0, 0]
          (mulf X (extractStridedSlice S524288x9 ![0, 0] CB slices_S524288x12_S524288x9_0_0)) slices_S524288x9_S524288x3_0_0)
          (constant (F := F) S_ .f32 0x00000000#32) reducesTo_S524288x3_S524288_d1 h_S_)⟩,
       ⟨S524288x1, broadcastInDim S524288x1 ![0] bcast_S524288_S524288x1_0 (Host.reduceAdd (extractStridedSlice S524288x3 ![0, 3]
          (mulf X (extractStridedSlice S524288x9 ![0, 0] CB slices_S524288x12_S524288x9_0_0)) slices_S524288x9_S524288x3_0_3)
          (constant (F := F) S_ .f32 0x00000000#32) reducesTo_S524288x3_S524288_d1 h_S_)⟩,
       ⟨S524288x1, broadcastInDim S524288x1 ![0] bcast_S524288_S524288x1_0 (Host.reduceAdd (extractStridedSlice S524288x3 ![0, 6]
          (mulf X (extractStridedSlice S524288x9 ![0, 0] CB slices_S524288x12_S524288x9_0_0)) slices_S524288x9_S524288x3_0_6)
          (constant (F := F) S_ .f32 0x00000000#32) reducesTo_S524288x3_S524288_d1 h_S_)⟩]
      concatenates_S524288x1_S524288x1_S524288x1_S524288x3_d1)
    (extractStridedSlice S524288x3 ![0, 9] CB slices_S524288x12_S524288x3_0_9)

/-- The whole result: the logits of the features against the constrained coefficients the two hidden layers give. -/
def wholeLogits (X : FVec F S524288x9 .f32) (Z : FVec F S524288x64 .f32) (W1 : FVec F S64x128 .f32)
    (c1 : FVec F S128 .f32) (W2 : FVec F S128x128 .f32) (c2 : FVec F S128 .f32) (W3 : FVec F S128x12 .f32)
    (c3 : FVec F S12 .f32) : FVec F S524288x3 .f32 :=
  logits X (constrainedCoeffs (coeffs (hidden2 (hidden1 Z W1 c1) W2 c2) W3 c3))

end Cert.Taste

end
-- ==== Proof.LibNary3.lean ====
/-
  A host operation over a LITERAL family of three operand references (a `concatenate` of three arrays), read back.

  The general statement of what such an operation leaves in its result buffer hands its function the family
  `fun k => F (xs k)` of the operands' contents. When the run of a straight line of host operations is read back one
  operation at a time, each operand's contents must stand at its OWN reference, so that the operations that wrote those
  operands can be read back in turn; under the binder `k` no reference is literal. For three references the family is
  the three contents in order (`nary3_result`), as the library states it for four.
-/
import Idealize.ShloMosaic.Lib.StableHlo.Run

noncomputable section

namespace Idealize.ShloMosaic.StableHlo

variable {τ : Topo} {sig : RefSig} {Val : EltTy → Type}

/-- What an operation over the three references `x, a, b` leaves at its result `y`: its function of the three
    operands' contents, each at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.RefStages.lean ====
/-
  The plain program's run, read back: every weakly fair execution of its fifty host operations terminates with the
  result array at the whole-array function `wholeLogits` of the eight argument arrays, the arguments unchanged.

  The operations are read in five stretches, each ending where a layer of `Whole.lean` ends — the first hidden layer
  (operations 1-7), the second (8-14), the coefficients (15-18), the sign constraint (19-33), the logits (34-36 the
  products and the intercept columns, 37-50 the sums). A stretch's result buffer holds that layer's function of the
  buffers the stretch found (`stage₁` … `stage₆`), and a
  buffer the stretch does not write keeps its contents; the five compose to the whole (`result_eq`).
-/
import proofs.«120099_j45483703665013_1_alg».proof.Proof.RefRun
import proofs.«120099_j45483703665013_1_alg».proof.Proof.Whole
import proofs.«120099_j45483703665013_1_alg».proof.Proof.LibNary3
import Idealize.ShloMosaic.Lib.Pipeline.Frame

noncomputable section

namespace Cert.ReferenceIdeal.Stages

open Cert.ReferenceIdeal Cert.ReferenceIdeal.Gen Cert.ReferenceIdeal.RunP Idealize.ShloMosaic Idealize.ShloMosaic.TcCoe Idealize.SL.Sem
  Idealize.ShloMosaic.StableHlo Cert.Taste

variable {F : FTy → Type} [FloatOps F]

/-- Reads a stretch's result back one operation at a time, a three-operand concatenate included. -/
local macro "read_back" : tactic =>
  `(tactic| (simp only [after_cons, after_nil]
             repeat (first
               | rw [nullary_result] | rw [unary_result] | rw [binary_result] | rw [nary4_result] | rw [nary3_result]
               | (rw [nullary_result_ne]; rotate_left; decide)
               | (rw [unary_result_ne]; rotate_left; decide)
               | (rw [binary_result_ne]; rotate_left; decide)
               | (rw [nary_result_ne]; rotate_left; decide))))

/-- A buffer that no operation of a stretch writes keeps its contents. -/
local macro "kept" : tactic =>
  `(tactic| (refine after_of_forall_not_mem _ _ (List.forall_iff_forall_mem.mp ?_)
             simp only [List.Forall, nullary_writes, unary_writes, binary_writes, nary_writes, Finset.mem_singleton]
             repeat' apply And.intro
             all_goals exact devRef_ne_of_ne (by decide)))

/-! ## The stretches -/

def ops₁ : List (HloOp τ sig (Elt F)) := (ops (F := F)).take 7
def ops₂ : List (HloOp τ sig (Elt F)) := ((ops (F := F)).drop 7).take 7
def ops₃ : List (HloOp τ sig (Elt F)) := ((ops (F := F)).drop 14).take 4
def ops₄ : List (HloOp τ sig (Elt F)) := ((ops (F := F)).drop 18).take 15
def ops₅ : List (HloOp τ sig (Elt F)) := ((ops (F := F)).drop 33).take 3
def ops₆ : List (HloOp τ sig (Elt F)) := (ops (F := F)).drop 36

theorem ops_split : (ops (F := F)) = ops₁ ++ (ops₂ ++ (ops₃ ++ (ops₄ ++ (ops₅ ++ ops₆)))) := rfl

variable (V : Valuation τ sig (Elt F))

/-! ### Operations 1-7: the first hidden layer -/

theorem stage₁ : after (ops₁ (F := F)) V (Proc.devRef .tc main_v4)
    = hidden1 (V (Proc.devRef .tc main_arg1)) (V (Proc.devRef .tc main_arg2)) (V (Proc.devRef .tc main_arg3)) := by
  simp only [ops₁, ops, List.take_succ_cons, List.take_zero]
  read_back
  rfl
theorem kept₁_arg0 : after (ops₁ (F := F)) V (Proc.devRef .tc main_arg0) = V (Proc.devRef .tc main_arg0) := by
  simp only [ops₁, ops, List.take_succ_cons, List.take_zero]; kept
theorem kept₁_arg4 : after (ops₁ (F := F)) V (Proc.devRef .tc main_arg4) = V (Proc.devRef .tc main_arg4) := by
  simp only [ops₁, ops, List.take_succ_cons, List.take_zero]; kept
theorem kept₁_arg5 : after (ops₁ (F := F)) V (Proc.devRef .tc main_arg5) = V (Proc.devRef .tc main_arg5) := by
  simp only [ops₁, ops, List.take_succ_cons, List.take_zero]; kept
theorem kept₁_arg6 : after (ops₁ (F := F)) V (Proc.devRef .tc main_arg6) = V (Proc.devRef .tc main_arg6) := by
  simp only [ops₁, ops, List.take_succ_cons, List.take_zero]; kept
theorem kept₁_arg7 : after (ops₁ (F := F)) V (Proc.devRef .tc main_arg7) = V (Proc.devRef .tc main_arg7) := by
  simp only [ops₁, ops, List.take_succ_cons, List.take_zero]; kept

/-! ### Operations 8-14: the second hidden layer -/

theorem stage₂ : after (ops₂ (F := F)) V (Proc.devRef .tc main_v9)
    = hidden2 (V (Proc.devRef .tc main_v4)) (V (Proc.devRef .tc main_arg4)) (V (Proc.devRef .tc main_arg5)) := by
  simp only [ops₂, ops, List.drop_succ_cons, List.drop_zero, List.take_succ_cons, List.take_zero]
  read_back
  rfl
theorem kept₂_arg0 : after (ops₂ (F := F)) V (Proc.devRef .tc main_arg0) = V (Proc.devRef .tc main_arg0) := by
  simp only [ops₂, ops, List.drop_succ_cons, List.drop_zero, List.take_succ_cons, List.take_zero]; kept
theorem kept₂_arg6 : after (ops₂ (F := F)) V (Proc.devRef .tc main_arg6) = V (Proc.devRef .tc main_arg6) := by
  simp only [ops₂, ops, List.drop_succ_cons, List.drop_zero, List.take_succ_cons, List.take_zero]; kept
theorem kept₂_arg7 : after (ops₂ (F := F)) V (Proc.devRef .tc main_arg7) = V (Proc.devRef .tc main_arg7) := by
  simp only [ops₂, ops, List.drop_succ_cons, List.drop_zero, List.take_succ_cons, List.take_zero]; kept

/-! ### Operations 15-18: the coefficients -/

theorem stage₃ : after (ops₃ (F := F)) V (Proc.devRef .tc main_v13)
    = coeffs (V (Proc.devRef .tc main_v9)) (V (Proc.devRef .tc main_arg6)) (V (Proc.devRef .tc main_arg7)) := by
  simp only [ops₃, ops, List.drop_succ_cons, List.drop_zero, List.take_succ_cons, List.take_zero]
  read_back
  rfl
theorem kept₃_arg0 : after (ops₃ (F := F)) V (Proc.devRef .tc main_arg0) = V (Proc.devRef .tc main_arg0) := by
  simp only [ops₃, ops, List.drop_succ_cons, List.drop_zero, List.take_succ_cons, List.take_zero]; kept

/-! ### Operations 19-33: the sign constraint -/

set_option maxHeartbeats 1000000 in
theorem stage₄ : after (ops₄ (F := F)) V (Proc.devRef .tc main_v24) = constrainedCoeffs (V (Proc.devRef .tc main_v13)) := by
  simp only [ops₄, ops, List.drop_succ_cons, List.drop_zero, List.take_succ_cons, List.take_zero]
  read_back
  rfl
theorem kept₄_arg0 : after (ops₄ (F := F)) V (Proc.devRef .tc main_arg0) = V (Proc.devRef .tc main_arg0) := by
  simp only [ops₄, ops, List.drop_succ_cons, List.drop_zero, List.take_succ_cons, List.take_zero]; kept

/-! ### Operations 34-36: the products of features and constrained coefficients, and the intercept columns -/

theorem stage₅_v27 : after (ops₅ (F := F)) V (Proc.devRef .tc main_v27)
    = mulf (V (Proc.devRef .tc main_arg0)) (extractStridedSlice S524288x9 ![0, 0] (V (Proc.devRef .tc main_v24)) slices_S524288x12_S524288x9_0_0) := by
  simp only [ops₅, ops, List.drop_succ_cons, List.drop_zero, List.take_succ_cons, List.take_zero]
  read_back
theorem stage₅_v26 : after (ops₅ (F := F)) V (Proc.devRef .tc main_v26)
    = extractStridedSlice S524288x3 ![0, 9] (V (Proc.devRef .tc main_v24)) slices_S524288x12_S524288x3_0_9 := by
  simp only [ops₅, ops, List.drop_succ_cons, List.drop_zero, List.take_succ_cons, List.take_zero]
  read_back

/-! ### Operations 37-50: each segment's sum as a column, side by side, plus the intercept columns -/

/-- The logits from the products `P` and the intercept columns `I`. -/
def logitsOf (P : FVec F S524288x9 .f32) (I : FVec F S524288x3 .f32) : FVec F S524288x3 .f32 :=
  addf (concatenate S524288x3 1
      [⟨S524288x1, broadcastInDim S524288x1 ![0] bcast_S524288_S524288x1_0 (Host.reduceAdd (extractStridedSlice S524288x3 ![0, 0]
          P slices_S524288x9_S524288x3_0_0) (constant (F := F) S_ .f32 0x00000000#32) reducesTo_S524288x3_S524288_d1 h_S_)⟩,
       ⟨S524288x1, broadcastInDim S524288x1 ![0] bcast_S524288_S524288x1_0 (Host.reduceAdd (extractStridedSlice S524288x3 ![0, 3]
          P slices_S524288x9_S524288x3_0_3) (constant (F := F) S_ .f32 0x00000000#32) reducesTo_S524288x3_S524288_d1 h_S_)⟩,
       ⟨S524288x1, broadcastInDim S524288x1 ![0] bcast_S524288_S524288x1_0 (Host.reduceAdd (extractStridedSlice S524288x3 ![0, 6]
          P slices_S524288x9_S524288x3_0_6) (constant (F := F) S_ .f32 0x00000000#32) reducesTo_S524288x3_S524288_d1 h_S_)⟩]
      concatenates_S524288x1_S524288x1_S524288x1_S524288x3_d1) I

theorem logits_eq (X : FVec F S524288x9 .f32) (CB : FVec F S524288x12 .f32) :
    logits X CB = logitsOf (mulf X (extractStridedSlice S524288x9 ![0, 0] CB slices_S524288x12_S524288x9_0_0))
      (extractStridedSlice S524288x3 ![0, 9] CB slices_S524288x12_S524288x3_0_9) := rfl

set_option maxHeartbeats 1000000 in
theorem stage₆ : after (ops₆ (F := F)) V (Proc.devRef .tc main_v38)
    = logitsOf (V (Proc.devRef .tc main_v27)) (V (Proc.devRef .tc main_v26)) := by
  simp only [ops₆, ops, List.drop_succ_cons, List.drop_zero]
  read_back
  rfl

/-! ## The whole line -/

/-- After the fifty operations the result buffer holds the whole-array function of the argument buffers. -/
theorem result_eq : after (ops (F := F)) V (Proc.devRef .tc main_v38)
    = wholeLogits (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) := by
  rw [ops_split, after_append, after_append, after_append, after_append, after_append, stage₆, stage₅_v27, stage₅_v26, ← logits_eq, stage₄, kept₄_arg0, stage₃, kept₃_arg0, stage₂,
    kept₂_arg0, kept₂_arg6, kept₂_arg7, stage₁, kept₁_arg0, kept₁_arg4, kept₁_arg5, kept₁_arg6, kept₁_arg7]
  rfl

/-- No operation writes an argument buffer. -/
theorem kept_arg0 : after (ops (F := F)) V (Proc.devRef .tc main_arg0) = V (Proc.devRef .tc main_arg0) := by kept
theorem kept_arg1 : after (ops (F := F)) V (Proc.devRef .tc main_arg1) = V (Proc.devRef .tc main_arg1) := by kept
theorem kept_arg2 : after (ops (F := F)) V (Proc.devRef .tc main_arg2) = V (Proc.devRef .tc main_arg2) := by kept
theorem kept_arg3 : after (ops (F := F)) V (Proc.devRef .tc main_arg3) = V (Proc.devRef .tc main_arg3) := by kept
theorem kept_arg4 : after (ops (F := F)) V (Proc.devRef .tc main_arg4) = V (Proc.devRef .tc main_arg4) := by kept
theorem kept_arg5 : after (ops (F := F)) V (Proc.devRef .tc main_arg5) = V (Proc.devRef .tc main_arg5) := by kept
theorem kept_arg6 : after (ops (F := F)) V (Proc.devRef .tc main_arg6) = V (Proc.devRef .tc main_arg6) := by kept
theorem kept_arg7 : after (ops (F := F)) V (Proc.devRef .tc main_arg7) = V (Proc.devRef .tc main_arg7) := by kept

/-- THE RUN: on every device, from any memory with zero counters, every weakly fair execution of @main terminates with
    the result array at the whole-array function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = wholeLogits (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v38).trans ((result_eq _).trans rfl),
      (h c main_arg0).trans ((kept_arg0 _).trans rfl), (h c main_arg1).trans ((kept_arg1 _).trans rfl),
      (h c main_arg2).trans ((kept_arg2 _).trans rfl), (h c main_arg3).trans ((kept_arg3 _).trans rfl),
      (h c main_arg4).trans ((kept_arg4 _).trans rfl), (h c main_arg5).trans ((kept_arg5 _).trans rfl),
      (h c main_arg6).trans ((kept_arg6 _).trans rfl), (h c main_arg7).trans ((kept_arg7 _).trans rfl)⟩)
    (run_seq scopedRefs_eq scopedSems_eq defs main (fun _ => ops) main_eq (fun _ => ops_sub) m ρ)

end Cert.ReferenceIdeal.Stages

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibReluRows.lean ====
/-
  A dense layer followed by `relu`, read row by row at the ideal values; and when a record of dimension numbers
  is the plain matrix product.

  `relu v = max v 0` is written by a tile kernel as `maximumf` against a splat of the zero word, and by the plain
  program as `maximum` against a rank-0 zero constant broadcast to the array; the zero word is the extended real 0 on
  both sides, so the row-by-row agreement of the affine layer (`affine_rows`) carries through (`relu_affine_rows`).
  A record of dimension numbers whose contracted axes are the left operand's columns and the right operand's rows,
  with no batch axes, is the plain product whatever the extents (`PlainDot.of_axes`).
-/
import proofs.«120099_j45483703665013_1_alg».proof.Proof.LibAffineRows
import Idealize.ShloMosaic.Lib.IdealHost

noncomputable section

namespace Cert.Lib

open Idealize.ShloMosaic Idealize.ShloMosaic.ValueIdx

variable {R K M : ℕ}

/-- The plain product from its axis lists: contract the left operand's axis 1 with the right operand's axis 0, keep
    the left operand's axis 0 and the right operand's axis 1, no batch axes. -/
theorem PlainDot.of_axes (d : DotDims ⟨2, ![R, K]⟩ ⟨2, ![K, M]⟩ ⟨2, ![R, M]⟩)
    (hlc : d.lhsContracting = [1]) (hrc : d.rhsContracting = [0]) (hln : d.lhsNonContracting = [0])
    (hrn : d.rhsNonContracting = [1]) (hlb : d.lhsBatch = []) (hrb : d.rhsBatch = []) : PlainDot d := by
  have hrank : d.contr.rank = 1 := by rw [d.rank_contr, hlc]; rfl
  have key : ∀ (i : (⟨2, ![R, M]⟩ : Shape).Idx) (p q : Nat) (hp : p < 2) (hq : q < 2), p = q →
      (i ⟨p, hp⟩).val = (i ⟨q, hq⟩).val := fun i p q hp hq h => by subst h; rfl
  refine ⟨hrank, ?_, ?_, ?_, ?_, ?_⟩
  · have h0 : 0 < d.lhsContracting.length := by rw [hlc]; exact Nat.one_pos
    have e : d.lhsContracting[0]'h0 = (1 : Fin 2) := by simp [hlc]
    rw [d.size_contr 0 h0, e]; rfl
  · intro i q
    have hb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hb, dif_pos hn]
    simp only [Fin.val_cast]
    exact key i _ _ _ _ (by simp [hlb, hln])
  · intro i q
    exact d.lhsIdx_val_of_single hlc i q
  · intro i q
    exact d.rhsIdx_val_of_single hrc i q
  · intro i q
    have hb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hb, dif_pos hn]
    simp only [Fin.val_cast]
    exact key i _ _ _ _ (by simp [hlb, hln, hrn])

/-- ROW BY ROW through a `relu`: where row `r` of the tile `xb` is row `n r` of `X`, the tile's
    `max (xb · w + bias) 0` at `(r, q)` is the whole `max (X · w + bias) 0` at `(n r, q)`. -/
theorem relu_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2))
    (h0 : (⟨0, ![]⟩ : Shape).BroadcastsInDim ⟨2, ![N, M]⟩ ![]) (r : Fin R) (q : Fin M) :
    maximumf (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc))
        (broadcast ⟨2, ![R, M]⟩ (Scalar.ofBits .f32 0x00000000#32)) (ix2 r q)
      = maximumf (addf (Host.dotGeneral dW none X w) (broadcastInDim ⟨2, ![N, M]⟩ ![0, 1] h2 (broadcastInDim ⟨2, ![1, M]⟩ ![1] h1 b)))
          (broadcastInDim ⟨2, ![N, M]⟩ ![] h0 (constant (F := Ideal) ⟨0, ![]⟩ .f32 0x00000000#32)) (ix2 (n r) q) := by
  rw [maximumf_apply, maximumf_apply, affine_rows hB hW xb X w b2 b n hx hb ht hsc hbc h1 h2 r q, broadcastInDim_scalar_apply]
  rfl

end Cert.Lib

end
-- ==== Proof.LibTasteLogits.lean ====
/-
  Sign-constrained coefficients and segment logits, read row by row at the ideal values.

  A row of twelve coefficients `b` is constrained column by column: columns 0-5 and 7-8 are capped at zero
  (`min (b c) 0`), columns 6 and 9-11 are kept. A tile kernel writes the cap as `minimumf · 0` on column bands it
  concatenates; the plain program writes it as `-(relu (-·))`. On the extended reals `-(max (-v) 0) = min v 0`
  for every `v`, the infinities included, so both arrays hold the same constrained row (`kernel_constrained`,
  `host_constrained`).

  From a row `x` of nine features and the constrained row `cb`, logit `j` (of three) is the sum over the three
  columns of segment `j` of `x · cb`, plus the intercept `cb (9 + j)`. The kernel takes each segment's sum by a lane
  reduction from the zero accumulator and lays the three columns side by side; the plain program reduces from an
  initial zero and broadcasts each sum to a column. Both read `(∑ k < 3, x (3 j + k) · cb (3 j + k)) + cb (9 + j)`
  (`kernel_logits`, `host_logits`). Nothing here depends on the number of rows.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Lib.Taste

open Idealize.ShloMosaic Idealize.ShloMosaic.ValueIdx

variable {N : ℕ} {α : Type}

/-! ## Column bands laid side by side -/

/-- Off the column axis, two indices of the same row agree. -/
private theorem rows_agree {A B : ℕ} (n : Fin N) (p : Fin A) (q : Fin B) :
    ∀ a : Fin (⟨2, ![N, A]⟩ : Shape).rank, a.cast (rfl : (⟨2, ![N, A]⟩ : Shape).rank = (⟨2, ![N, B]⟩ : Shape).rank) ≠ (1 : Fin 2) →
      ((ix2 n p : (⟨2, ![N, A]⟩ : Shape).Idx) a).val = ((ix2 n q : (⟨2, ![N, B]⟩ : Shape).Idx) (a.cast rfl)).val := by
  intro a ha
  match a with
  | ⟨0, _⟩ => rfl
  | ⟨1, _⟩ => exact absurd rfl ha

/-- Bands of 6, 1, 2 and 3 columns side by side: column `c` of the twelve is read in the band it falls in. -/
theorem bands_apply (p0 : (⟨2, ![N, 6]⟩ : Shape).Idx → α) (p1 : (⟨2, ![N, 1]⟩ : Shape).Idx → α)
    (p2 : (⟨2, ![N, 2]⟩ : Shape).Idx → α) (p3 : (⟨2, ![N, 3]⟩ : Shape).Idx → α)
    (hc : Shape.Concatenates [⟨2, ![N, 6]⟩, ⟨2, ![N, 1]⟩, ⟨2, ![N, 2]⟩, ⟨2, ![N, 3]⟩] ⟨2, ![N, 12]⟩ 1) (n : Fin N) (c : ℕ) (hc12 : c < 12) :
    concatenate ⟨2, ![N, 12]⟩ 1 [⟨⟨2, ![N, 6]⟩, p0⟩, ⟨⟨2, ![N, 1]⟩, p1⟩, ⟨⟨2, ![N, 2]⟩, p2⟩, ⟨⟨2, ![N, 3]⟩, p3⟩] hc (ix2 n ⟨c, hc12⟩)
      = if h6 : c < 6 then p0 (ix2 n ⟨c, h6⟩)
        else if h7 : c < 7 then p1 (ix2 n ⟨c - 6, by omega⟩)
        else if h9 : c < 9 then p2 (ix2 n ⟨c - 7, by omega⟩)
        else p3 (ix2 n ⟨c - 9, by omega⟩) := by
  by_cases h6 : c < 6
  · rw [dif_pos h6]
    exact concatenate_apply_piece (t := ⟨2, ![N, 12]⟩) (1 : Fin 2) [⟨⟨2, ![N, 6]⟩, p0⟩, ⟨⟨2, ![N, 1]⟩, p1⟩, ⟨⟨2, ![N, 2]⟩, p2⟩, ⟨⟨2, ![N, 3]⟩, p3⟩] hc
      (ix2 n ⟨c, hc12⟩) 0 (by simp) ⟨2, ![N, 6]⟩ p0 rfl rfl 0 rfl (ix2 n ⟨c, h6⟩) (rows_agree n _ _) (Nat.zero_add _)
  · rw [dif_neg h6]
    by_cases h7 : c < 7
    · rw [dif_pos h7]
      exact concatenate_apply_piece (t := ⟨2, ![N, 12]⟩) (1 : Fin 2) [⟨⟨2, ![N, 6]⟩, p0⟩, ⟨⟨2, ![N, 1]⟩, p1⟩, ⟨⟨2, ![N, 2]⟩, p2⟩, ⟨⟨2, ![N, 3]⟩, p3⟩] hc
        (ix2 n ⟨c, hc12⟩) 1 (by simp) ⟨2, ![N, 1]⟩ p1 rfl rfl 6 rfl (ix2 n ⟨c - 6, by omega⟩) (rows_agree n _ _)
        (by show 6 + (c - 6) = c; omega)
    · rw [dif_neg h7]
      by_cases h9 : c < 9
      · rw [dif_pos h9]
        exact concatenate_apply_piece (t := ⟨2, ![N, 12]⟩) (1 : Fin 2) [⟨⟨2, ![N, 6]⟩, p0⟩, ⟨⟨2, ![N, 1]⟩, p1⟩, ⟨⟨2, ![N, 2]⟩, p2⟩, ⟨⟨2, ![N, 3]⟩, p3⟩] hc
          (ix2 n ⟨c, hc12⟩) 2 (by simp) ⟨2, ![N, 2]⟩ p2 rfl rfl 7 rfl (ix2 n ⟨c - 7, by omega⟩) (rows_agree n _ _)
          (by show 7 + (c - 7) = c; omega)
      · rw [dif_neg h9]
        exact concatenate_apply_piece (t := ⟨2, ![N, 12]⟩) (1 : Fin 2) [⟨⟨2, ![N, 6]⟩, p0⟩, ⟨⟨2, ![N, 1]⟩, p1⟩, ⟨⟨2, ![N, 2]⟩, p2⟩, ⟨⟨2, ![N, 3]⟩, p3⟩] hc
          (ix2 n ⟨c, hc12⟩) 3 (by simp) ⟨2, ![N, 3]⟩ p3 rfl rfl 9 rfl (ix2 n ⟨c - 9, by omega⟩) (rows_agree n _ _)
          (by show 9 + (c - 9) = c; omega)

/-- Three single columns side by side: column `j` of the three is the `j`-th column's one entry. -/
theorem columns_apply (q : Fin 3 → (⟨2, ![N, 1]⟩ : Shape).Idx → α)
    (hc : Shape.Concatenates [⟨2, ![N, 1]⟩, ⟨2, ![N, 1]⟩, ⟨2, ![N, 1]⟩] ⟨2, ![N, 3]⟩ 1) (n : Fin N) (j : Fin 3) :
    concatenate ⟨2, ![N, 3]⟩ 1 [⟨⟨2, ![N, 1]⟩, q 0⟩, ⟨⟨2, ![N, 1]⟩, q 1⟩, ⟨⟨2, ![N, 1]⟩, q 2⟩] hc (ix2 n j) = q j (ix2 n (0 : Fin 1)) := by
  match j with
  | ⟨0, _⟩ =>
    exact concatenate_apply_piece (t := ⟨2, ![N, 3]⟩) (1 : Fin 2) [⟨⟨2, ![N, 1]⟩, q 0⟩, ⟨⟨2, ![N, 1]⟩, q 1⟩, ⟨⟨2, ![N, 1]⟩, q 2⟩] hc
      (ix2 n (0 : Fin 3)) 0 (by simp) ⟨2, ![N, 1]⟩ (q 0) rfl rfl 0 rfl (ix2 n (0 : Fin 1)) (rows_agree n _ _) rfl
  | ⟨1, _⟩ =>
    exact concatenate_apply_piece (t := ⟨2, ![N, 3]⟩) (1 : Fin 2) [⟨⟨2, ![N, 1]⟩, q 0⟩, ⟨⟨2, ![N, 1]⟩, q 1⟩, ⟨⟨2, ![N, 1]⟩, q 2⟩] hc
      (ix2 n (1 : Fin 3)) 1 (by simp) ⟨2, ![N, 1]⟩ (q 1) rfl rfl 1 rfl (ix2 n (0 : Fin 1)) (rows_agree n _ _) rfl
  | ⟨2, _⟩ =>
    exact concatenate_apply_piece (t := ⟨2, ![N, 3]⟩) (1 : Fin 2) [⟨⟨2, ![N, 1]⟩, q 0⟩, ⟨⟨2, ![N, 1]⟩, q 1⟩, ⟨⟨2, ![N, 1]⟩, q 2⟩] hc
      (ix2 n (2 : Fin 3)) 2 (by simp) ⟨2, ![N, 1]⟩ (q 2) rfl rfl 2 rfl (ix2 n (0 : Fin 1)) (rows_agree n _ _) rfl

/-! ## The constraint -/

/-- On the extended reals, negating the positive part of `-v` caps `v` at zero. -/
theorem neg_max_neg_zero (v : EReal) : -(max (-v) 0) = min v 0 := by
  rcases le_total v 0 with h | h
  · rw [min_eq_left h, max_eq_left (EReal.neg_nonneg.mpr h), neg_neg]
  · have h' : -v ≤ 0 := by
      have := EReal.neg_le_neg_iff.mpr h
      rwa [neg_zero] at this
    rw [min_eq_right h, max_eq_right h', neg_zero]

/-- The constrained row: columns 0-5 and 7-8 capped at zero, columns 6 and 9-11 kept. -/
def constrained (b : Fin 12 → EReal) (c : Fin 12) : EReal :=
  if c.val < 6 ∨ (7 ≤ c.val ∧ c.val < 9) then min (b c) 0 else b c

/-- THE KERNEL'S constrained coefficients: the bands `min · 0`, kept, `min · 0`, kept, side by side. -/
theorem kernel_constrained (b : FVec Ideal ⟨2, ![N, 12]⟩ .f32)
    (s6 : (⟨2, ![N, 12]⟩ : Shape).Slices ![0, 0] ⟨2, ![N, 6]⟩) (s1 : (⟨2, ![N, 12]⟩ : Shape).Slices ![0, 6] ⟨2, ![N, 1]⟩)
    (s2 : (⟨2, ![N, 12]⟩ : Shape).Slices ![0, 7] ⟨2, ![N, 2]⟩) (s3 : (⟨2, ![N, 12]⟩ : Shape).Slices ![0, 9] ⟨2, ![N, 3]⟩)
    (hc : Shape.Concatenates [⟨2, ![N, 6]⟩, ⟨2, ![N, 1]⟩, ⟨2, ![N, 2]⟩, ⟨2, ![N, 3]⟩] ⟨2, ![N, 12]⟩ 1) (n : Fin N) (c : Fin 12) :
    concatenate (α := Ideal .f32) ⟨2, ![N, 12]⟩ 1
        [⟨⟨2, ![N, 6]⟩, minimumf (extractStridedSlice ⟨2, ![N, 6]⟩ ![0, 0] b s6) (broadcast ⟨2, ![N, 6]⟩ (Scalar.ofBits .f32 0x00000000#32))⟩,
         ⟨⟨2, ![N, 1]⟩, extractStridedSlice ⟨2, ![N, 1]⟩ ![0, 6] b s1⟩,
         ⟨⟨2, ![N, 2]⟩, minimumf (extractStridedSlice ⟨2, ![N, 2]⟩ ![0, 7] b s2) (broadcast ⟨2, ![N, 2]⟩ (Scalar.ofBits .f32 0x00000000#32))⟩,
         ⟨⟨2, ![N, 3]⟩, extractStridedSlice ⟨2, ![N, 3]⟩ ![0, 9] b s3⟩] hc (ix2 n c)
      = constrained (fun c => b (ix2 n c)) c := by
  obtain ⟨c, hc12⟩ := c
  rw [bands_apply]
  unfold constrained
  dsimp only
  by_cases h6 : c < 6
  · rw [dif_pos h6, if_pos (Or.inl h6), minimumf_apply, slice2_axis1_apply 0 b s6 n ⟨c, h6⟩ ⟨c, hc12⟩ (Nat.zero_add _).symm,
      broadcast_apply]
    exact congrArg (min _) Ideal.ofBits_zero_f32
  · rw [dif_neg h6]
    by_cases h7 : c < 7
    · rw [dif_pos h7, if_neg (by omega)]
      exact slice2_axis1_apply 6 b s1 n ⟨c - 6, by omega⟩ ⟨c, hc12⟩ (by show c = 6 + (c - 6); omega)
    · rw [dif_neg h7]
      by_cases h9 : c < 9
      · rw [dif_pos h9, if_pos (Or.inr ⟨by omega, h9⟩), minimumf_apply,
          slice2_axis1_apply 7 b s2 n ⟨c - 7, by omega⟩ ⟨c, hc12⟩ (by show c = 7 + (c - 7); omega), broadcast_apply]
        exact congrArg (min _) Ideal.ofBits_zero_f32
      · rw [dif_neg h9, if_neg (by omega)]
        exact slice2_axis1_apply 9 b s3 n ⟨c - 9, by omega⟩ ⟨c, hc12⟩ (by show c = 9 + (c - 9); omega)

/-- THE PLAIN PROGRAM'S constrained coefficients: the bands `-(relu (-·))`, kept, `-(relu (-·))`, kept. -/
theorem host_constrained (b : FVec Ideal ⟨2, ![N, 12]⟩ .f32)
    (s6 : (⟨2, ![N, 12]⟩ : Shape).Slices ![0, 0] ⟨2, ![N, 6]⟩) (s1 : (⟨2, ![N, 12]⟩ : Shape).Slices ![0, 6] ⟨2, ![N, 1]⟩)
    (s2 : (⟨2, ![N, 12]⟩ : Shape).Slices ![0, 7] ⟨2, ![N, 2]⟩) (s3 : (⟨2, ![N, 12]⟩ : Shape).Slices ![0, 9] ⟨2, ![N, 3]⟩)
    (z6 : (⟨0, ![]⟩ : Shape).BroadcastsInDim ⟨2, ![N, 6]⟩ ![]) (z2 : (⟨0, ![]⟩ : Shape).BroadcastsInDim ⟨2, ![N, 2]⟩ ![])
    (hc : Shape.Concatenates [⟨2, ![N, 6]⟩, ⟨2, ![N, 1]⟩, ⟨2, ![N, 2]⟩, ⟨2, ![N, 3]⟩] ⟨2, ![N, 12]⟩ 1) (n : Fin N) (c : Fin 12) :
    concatenate (α := Ideal .f32) ⟨2, ![N, 12]⟩ 1
        [⟨⟨2, ![N, 6]⟩, Host.negf (maximumf (Host.negf (extractStridedSlice ⟨2, ![N, 6]⟩ ![0, 0] b s6))
            (broadcastInDim ⟨2, ![N, 6]⟩ ![] z6 (constant (F := Ideal) ⟨0, ![]⟩ .f32 0x00000000#32)))⟩,
         ⟨⟨2, ![N, 1]⟩, extractStridedSlice ⟨2, ![N, 1]⟩ ![0, 6] b s1⟩,
         ⟨⟨2, ![N, 2]⟩, Host.negf (maximumf (Host.negf (extractStridedSlice ⟨2, ![N, 2]⟩ ![0, 7] b s2))
            (broadcastInDim ⟨2, ![N, 2]⟩ ![] z2 (constant (F := Ideal) ⟨0, ![]⟩ .f32 0x00000000#32)))⟩,
         ⟨⟨2, ![N, 3]⟩, extractStridedSlice ⟨2, ![N, 3]⟩ ![0, 9] b s3⟩] hc (ix2 n c)
      = constrained (fun c => b (ix2 n c)) c := by
  obtain ⟨c, hc12⟩ := c
  rw [bands_apply]
  unfold constrained
  dsimp only
  by_cases h6 : c < 6
  · rw [dif_pos h6, if_pos (Or.inl h6)]
    show -(max (-(extractStridedSlice ⟨2, ![N, 6]⟩ ![0, 0] b s6 (ix2 n ⟨c, h6⟩)))
      (broadcastInDim ⟨2, ![N, 6]⟩ ![] z6 (constant (F := Ideal) ⟨0, ![]⟩ .f32 0x00000000#32) (ix2 n ⟨c, h6⟩))) = _
    rw [slice2_axis1_apply 0 b s6 n ⟨c, h6⟩ ⟨c, hc12⟩ (Nat.zero_add _).symm, broadcastInDim_scalar_apply, constant_apply,
      Ideal.ofBits_zero_f32]
    exact neg_max_neg_zero _
  · rw [dif_neg h6]
    by_cases h7 : c < 7
    · rw [dif_pos h7, if_neg (by omega)]
      exact slice2_axis1_apply 6 b s1 n ⟨c - 6, by omega⟩ ⟨c, hc12⟩ (by show c = 6 + (c - 6); omega)
    · rw [dif_neg h7]
      by_cases h9 : c < 9
      · rw [dif_pos h9, if_pos (Or.inr ⟨by omega, h9⟩)]
        show -(max (-(extractStridedSlice ⟨2, ![N, 2]⟩ ![0, 7] b s2 (ix2 n ⟨c - 7, by omega⟩)))
          (broadcastInDim ⟨2, ![N, 2]⟩ ![] z2 (constant (F := Ideal) ⟨0, ![]⟩ .f32 0x00000000#32) (ix2 n ⟨c - 7, by omega⟩))) = _
        rw [slice2_axis1_apply 7 b s2 n ⟨c - 7, by omega⟩ ⟨c, hc12⟩ (by show c = 7 + (c - 7); omega), broadcastInDim_scalar_apply,
          constant_apply, Ideal.ofBits_zero_f32]
        exact neg_max_neg_zero _
      · rw [dif_neg h9, if_neg (by omega)]
        exact slice2_axis1_apply 9 b s3 n ⟨c - 9, by omega⟩ ⟨c, hc12⟩ (by show c = 9 + (c - 9); omega)

/-! ## The logits -/

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 to a column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => by
    match ax with
    | ⟨0, _⟩ => show i.val = if a = 1 then 0 else i.val; split <;> [(have := i.isLt; omega); rfl])

/-- Over a row index `n`, the index of a three-column band with the column `k` put back is `(n, k)`. -/
private theorem lift_row (hr : (⟨2, ![N, 3]⟩ : Shape).Reduces [1] ⟨1, ![N]⟩) (n : Fin N) (k : Fin 3) :
    hr.lift (ix1 n) k = ix2 n k :=
  funext fun a => Fin.ext (by
    match a with
    | ⟨0, _⟩ => rfl
    | ⟨1, _⟩ => rfl)

/-- THE KERNEL'S segment sum: the lane sum, from the zero accumulator, of the three columns from `o` of `x · cb`. -/
theorem kernel_segment (x : FVec Ideal ⟨2, ![N, 9]⟩ .f32) (cb : FVec Ideal ⟨2, ![N, 12]⟩ .f32) (o : ℕ) (ho : o + 3 ≤ 9)
    (t9 : (⟨2, ![N, 12]⟩ : Shape).Slices ![0, 0] ⟨2, ![N, 9]⟩) (u : (⟨2, ![N, 9]⟩ : Shape).Slices ![0, o] ⟨2, ![N, 3]⟩)
    (hr : (⟨2, ![N, 3]⟩ : Shape).Reduces [1] ⟨1, ![N]⟩) (hφ : FKind.Formats .f32)
    (hacc : (0x00000000#32 : BitVec 32) = FKind.add.neutral .f32 hφ) (n : Fin N) :
    multiReduction .add [1] ⟨1, ![N]⟩ (extractStridedSlice ⟨2, ![N, 3]⟩ ![0, o]
        (mulf x (extractStridedSlice ⟨2, ![N, 9]⟩ ![0, 0] cb t9)) u) 0x00000000#32 hr hφ hacc (ix1 n)
      = ∑ k : Fin 3, x (ix2 n ⟨o + k.val, by omega⟩) * cb (ix2 n ⟨o + k.val, by omega⟩) := by
  refine (Ideal.multiReduction_add_single _ _ hr hφ hacc (ix1 n)).trans ?_
  show (∑ k : Fin 3, extractStridedSlice ⟨2, ![N, 3]⟩ ![0, o] (mulf x (extractStridedSlice ⟨2, ![N, 9]⟩ ![0, 0] cb t9)) u
    (hr.lift (ix1 n) k)) = _
  refine Finset.sum_congr rfl fun k _ => ?_
  rw [lift_row hr n k, slice2_axis1_apply o _ u n k ⟨o + k.val, by omega⟩ rfl, mulf_apply,
    slice2_axis1_apply 0 cb t9 n ⟨o + k.val, by omega⟩ ⟨o + k.val, by omega⟩ (Nat.zero_add _).symm]

/-- THE PLAIN PROGRAM'S segment sum: the reduction, from an initial zero, of the three columns from `o` of `x · cb`. -/
theorem host_segment (x : FVec Ideal ⟨2, ![N, 9]⟩ .f32) (cb : FVec Ideal ⟨2, ![N, 12]⟩ .f32) (o : ℕ) (ho : o + 3 ≤ 9)
    (t9 : (⟨2, ![N, 12]⟩ : Shape).Slices ![0, 0] ⟨2, ![N, 9]⟩) (u : (⟨2, ![N, 9]⟩ : Shape).Slices ![0, o] ⟨2, ![N, 3]⟩)
    (hr : (⟨2, ![N, 3]⟩ : Shape).ReducesTo [1] ⟨1, ![N]⟩) (h0 : 0 < (⟨0, ![]⟩ : Shape).numel) (n : Fin N) :
    Host.reduceAdd (extractStridedSlice ⟨2, ![N, 3]⟩ ![0, o] (mulf x (extractStridedSlice ⟨2, ![N, 9]⟩ ![0, 0] cb t9)) u)
        (constant (F := Ideal) ⟨0, ![]⟩ .f32 0x00000000#32) hr h0 (ix1 n)
      = ∑ k : Fin 3, x (ix2 n ⟨o + k.val, by omega⟩) * cb (ix2 n ⟨o + k.val, by omega⟩) := by
  have hr' : (⟨2, ![N, 3]⟩ : Shape).Reduces [1] ⟨1, ![N]⟩ := ⟨hr.1, Nat.one_pos, hr.2⟩
  rw [hostReduceAdd_apply, Ideal.hostReduceAdd_single hr hr', constant_apply, Ideal.ofBits_zero_f32, zero_add]
  show (∑ k : Fin 3, extractStridedSlice ⟨2, ![N, 3]⟩ ![0, o] (mulf x (extractStridedSlice ⟨2, ![N, 9]⟩ ![0, 0] cb t9)) u
    (hr'.lift (ix1 n) k)) = _
  refine Finset.sum_congr rfl fun k _ => ?_
  rw [lift_row hr' n k, slice2_axis1_apply o _ u n k ⟨o + k.val, by omega⟩ rfl, mulf_apply,
    slice2_axis1_apply 0 cb t9 n ⟨o + k.val, by omega⟩ ⟨o + k.val, by omega⟩ (Nat.zero_add _).symm]

/-- Logit `j` of a row: the sum over segment `j`'s three columns of feature times coefficient, plus intercept `j`. -/
def logit (x : Fin 9 → EReal) (cb : Fin 12 → EReal) (j : Fin 3) : EReal :=
  (∑ k : Fin 3, x ⟨3 * j.val + k.val, by omega⟩ * cb ⟨3 * j.val + k.val, by omega⟩) + cb ⟨9 + j.val, by omega⟩

/-- THE KERNEL'S logits: three lane sums made columns, side by side, plus the intercept band. -/
theorem kernel_logits (x : FVec Ideal ⟨2, ![N, 9]⟩ .f32) (cb : FVec Ideal ⟨2, ![N, 12]⟩ .f32)
    (t9 : (⟨2, ![N, 12]⟩ : Shape).Slices ![0, 0] ⟨2, ![N, 9]⟩) (s3 : (⟨2, ![N, 12]⟩ : Shape).Slices ![0, 9] ⟨2, ![N, 3]⟩)
    (u0 : (⟨2, ![N, 9]⟩ : Shape).Slices ![0, 0] ⟨2, ![N, 3]⟩) (u3 : (⟨2, ![N, 9]⟩ : Shape).Slices ![0, 3] ⟨2, ![N, 3]⟩)
    (u6 : (⟨2, ![N, 9]⟩ : Shape).Slices ![0, 6] ⟨2, ![N, 3]⟩)
    (hr : (⟨2, ![N, 3]⟩ : Shape).Reduces [1] ⟨1, ![N]⟩) (hφ : FKind.Formats .f32)
    (hacc : (0x00000000#32 : BitVec 32) = FKind.add.neutral .f32 hφ) (hsc : (⟨1, ![N]⟩ : Shape).ShapeCasts ⟨2, ![N, 1]⟩)
    (hc : Shape.Concatenates [⟨2, ![N, 1]⟩, ⟨2, ![N, 1]⟩, ⟨2, ![N, 1]⟩] ⟨2, ![N, 3]⟩ 1) (n : Fin N) (j : Fin 3) :
    addf (concatenate (α := Ideal .f32) ⟨2, ![N, 3]⟩ 1
        [⟨⟨2, ![N, 1]⟩, shapeCast ⟨2, ![N, 1]⟩ (multiReduction .add [1] ⟨1, ![N]⟩ (extractStridedSlice ⟨2, ![N, 3]⟩ ![0, 0]
            (mulf x (extractStridedSlice ⟨2, ![N, 9]⟩ ![0, 0] cb t9)) u0) 0x00000000#32 hr hφ hacc) hsc⟩,
         ⟨⟨2, ![N, 1]⟩, shapeCast ⟨2, ![N, 1]⟩ (multiReduction .add [1] ⟨1, ![N]⟩ (extractStridedSlice ⟨2, ![N, 3]⟩ ![0, 3]
            (mulf x (extractStridedSlice ⟨2, ![N, 9]⟩ ![0, 0] cb t9)) u3) 0x00000000#32 hr hφ hacc) hsc⟩,
         ⟨⟨2, ![N, 1]⟩, shapeCast ⟨2, ![N, 1]⟩ (multiReduction .add [1] ⟨1, ![N]⟩ (extractStridedSlice ⟨2, ![N, 3]⟩ ![0, 6]
            (mulf x (extractStridedSlice ⟨2, ![N, 9]⟩ ![0, 0] cb t9)) u6) 0x00000000#32 hr hφ hacc) hsc⟩] hc)
      (extractStridedSlice ⟨2, ![N, 3]⟩ ![0, 9] cb s3) (ix2 n j)
      = logit (fun c => x (ix2 n c)) (fun c => cb (ix2 n c)) j := by
  rw [addf_apply, columns_apply (fun
      | ⟨0, _⟩ => shapeCast ⟨2, ![N, 1]⟩ (multiReduction .add [1] ⟨1, ![N]⟩ (extractStridedSlice ⟨2, ![N, 3]⟩ ![0, 0]
          (mulf x (extractStridedSlice ⟨2, ![N, 9]⟩ ![0, 0] cb t9)) u0) 0x00000000#32 hr hφ hacc) hsc
      | ⟨1, _⟩ => shapeCast ⟨2, ![N, 1]⟩ (multiReduction .add [1] ⟨1, ![N]⟩ (extractStridedSlice ⟨2, ![N, 3]⟩ ![0, 3]
          (mulf x (extractStridedSlice ⟨2, ![N, 9]⟩ ![0, 0] cb t9)) u3) 0x00000000#32 hr hφ hacc) hsc
      | ⟨2, _⟩ => shapeCast ⟨2, ![N, 1]⟩ (multiReduction .add [1] ⟨1, ![N]⟩ (extractStridedSlice ⟨2, ![N, 3]⟩ ![0, 6]
          (mulf x (extractStridedSlice ⟨2, ![N, 9]⟩ ![0, 0] cb t9)) u6) 0x00000000#32 hr hφ hacc) hsc) hc n j]
  match j with
  | ⟨0, _⟩ =>
    show shapeCast ⟨2, ![N, 1]⟩ _ hsc (ix2 n (0 : Fin 1)) + _ = _
    rw [shapeCast_a_a1_apply, kernel_segment x cb 0 (by omega) t9 u0 hr hφ hacc n,
      slice2_axis1_apply 9 cb s3 n ⟨0, by omega⟩ ⟨9, by omega⟩ rfl]
    rfl
  | ⟨1, _⟩ =>
    show shapeCast ⟨2, ![N, 1]⟩ _ hsc (ix2 n (0 : Fin 1)) + _ = _
    rw [shapeCast_a_a1_apply, kernel_segment x cb 3 (by omega) t9 u3 hr hφ hacc n,
      slice2_axis1_apply 9 cb s3 n ⟨1, by omega⟩ ⟨10, by omega⟩ rfl]
    rfl
  | ⟨2, _⟩ =>
    show shapeCast ⟨2, ![N, 1]⟩ _ hsc (ix2 n (0 : Fin 1)) + _ = _
    rw [shapeCast_a_a1_apply, kernel_segment x cb 6 (by omega) t9 u6 hr hφ hacc n,
      slice2_axis1_apply 9 cb s3 n ⟨2, by omega⟩ ⟨11, by omega⟩ rfl]
    rfl

/-- THE PLAIN PROGRAM'S logits: three reductions broadcast to columns, side by side, plus the intercept band. -/
theorem host_logits (x : FVec Ideal ⟨2, ![N, 9]⟩ .f32) (cb : FVec Ideal ⟨2, ![N, 12]⟩ .f32)
    (t9 : (⟨2, ![N, 12]⟩ : Shape).Slices ![0, 0] ⟨2, ![N, 9]⟩) (s3 : (⟨2, ![N, 12]⟩ : Shape).Slices ![0, 9] ⟨2, ![N, 3]⟩)
    (u0 : (⟨2, ![N, 9]⟩ : Shape).Slices ![0, 0] ⟨2, ![N, 3]⟩) (u3 : (⟨2, ![N, 9]⟩ : Shape).Slices ![0, 3] ⟨2, ![N, 3]⟩)
    (u6 : (⟨2, ![N, 9]⟩ : Shape).Slices ![0, 6] ⟨2, ![N, 3]⟩)
    (hr : (⟨2, ![N, 3]⟩ : Shape).ReducesTo [1] ⟨1, ![N]⟩) (h0 : 0 < (⟨0, ![]⟩ : Shape).numel)
    (hb : (⟨1, ![N]⟩ : Shape).BroadcastsInDim ⟨2, ![N, 1]⟩ (![0] : Fin 1 → Fin 2))
    (hc : Shape.Concatenates [⟨2, ![N, 1]⟩, ⟨2, ![N, 1]⟩, ⟨2, ![N, 1]⟩] ⟨2, ![N, 3]⟩ 1) (n : Fin N) (j : Fin 3) :
    addf (concatenate (α := Ideal .f32) ⟨2, ![N, 3]⟩ 1
        [⟨⟨2, ![N, 1]⟩, broadcastInDim ⟨2, ![N, 1]⟩ (![0] : Fin 1 → Fin 2) hb (Host.reduceAdd (extractStridedSlice ⟨2, ![N, 3]⟩ ![0, 0]
            (mulf x (extractStridedSlice ⟨2, ![N, 9]⟩ ![0, 0] cb t9)) u0) (constant (F := Ideal) ⟨0, ![]⟩ .f32 0x00000000#32) hr h0)⟩,
         ⟨⟨2, ![N, 1]⟩, broadcastInDim ⟨2, ![N, 1]⟩ (![0] : Fin 1 → Fin 2) hb (Host.reduceAdd (extractStridedSlice ⟨2, ![N, 3]⟩ ![0, 3]
            (mulf x (extractStridedSlice ⟨2, ![N, 9]⟩ ![0, 0] cb t9)) u3) (constant (F := Ideal) ⟨0, ![]⟩ .f32 0x00000000#32) hr h0)⟩,
         ⟨⟨2, ![N, 1]⟩, broadcastInDim ⟨2, ![N, 1]⟩ (![0] : Fin 1 → Fin 2) hb (Host.reduceAdd (extractStridedSlice ⟨2, ![N, 3]⟩ ![0, 6]
            (mulf x (extractStridedSlice ⟨2, ![N, 9]⟩ ![0, 0] cb t9)) u6) (constant (F := Ideal) ⟨0, ![]⟩ .f32 0x00000000#32) hr h0)⟩] hc)
      (extractStridedSlice ⟨2, ![N, 3]⟩ ![0, 9] cb s3) (ix2 n j)
      = logit (fun c => x (ix2 n c)) (fun c => cb (ix2 n c)) j := by
  rw [addf_apply, columns_apply (fun
      | ⟨0, _⟩ => broadcastInDim ⟨2, ![N, 1]⟩ (![0] : Fin 1 → Fin 2) hb (Host.reduceAdd (extractStridedSlice ⟨2, ![N, 3]⟩ ![0, 0]
          (mulf x (extractStridedSlice ⟨2, ![N, 9]⟩ ![0, 0] cb t9)) u0) (constant (F := Ideal) ⟨0, ![]⟩ .f32 0x00000000#32) hr h0)
      | ⟨1, _⟩ => broadcastInDim ⟨2, ![N, 1]⟩ (![0] : Fin 1 → Fin 2) hb (Host.reduceAdd (extractStridedSlice ⟨2, ![N, 3]⟩ ![0, 3]
          (mulf x (extractStridedSlice ⟨2, ![N, 9]⟩ ![0, 0] cb t9)) u3) (constant (F := Ideal) ⟨0, ![]⟩ .f32 0x00000000#32) hr h0)
      | ⟨2, _⟩ => broadcastInDim ⟨2, ![N, 1]⟩ (![0] : Fin 1 → Fin 2) hb (Host.reduceAdd (extractStridedSlice ⟨2, ![N, 3]⟩ ![0, 6]
          (mulf x (extractStridedSlice ⟨2, ![N, 9]⟩ ![0, 0] cb t9)) u6) (constant (F := Ideal) ⟨0, ![]⟩ .f32 0x00000000#32) hr h0)) hc n j]
  match j with
  | ⟨0, _⟩ =>
    show broadcastInDim (s := ⟨1, ![N]⟩) ⟨2, ![N, 1]⟩ (![0] : Fin 1 → Fin 2) hb _ (ix2 n (0 : Fin 1)) + _ = _
    rw [broadcastInDim_a_a1_apply, host_segment x cb 0 (by omega) t9 u0 hr h0 n,
      slice2_axis1_apply 9 cb s3 n ⟨0, by omega⟩ ⟨9, by omega⟩ rfl]
    rfl
  | ⟨1, _⟩ =>
    show broadcastInDim (s := ⟨1, ![N]⟩) ⟨2, ![N, 1]⟩ (![0] : Fin 1 → Fin 2) hb _ (ix2 n (0 : Fin 1)) + _ = _
    rw [broadcastInDim_a_a1_apply, host_segment x cb 3 (by omega) t9 u3 hr h0 n,
      slice2_axis1_apply 9 cb s3 n ⟨1, by omega⟩ ⟨10, by omega⟩ rfl]
    rfl
  | ⟨2, _⟩ =>
    show broadcastInDim (s := ⟨1, ![N]⟩) ⟨2, ![N, 1]⟩ (![0] : Fin 1 → Fin 2) hb _ (ix2 n (0 : Fin 1)) + _ = _
    rw [broadcastInDim_a_a1_apply, host_segment x cb 6 (by omega) t9 u6 hr h0 n,
      slice2_axis1_apply 9 cb s3 n ⟨2, by omega⟩ ⟨11, by omega⟩ rfl]
    rfl

end Cert.Lib.Taste

end
-- ==== Proof.TileRows.lean ====
/-
  One tile of the kernel against the whole result, row by row.

  The body works on a tile of 4096 rows: the features `x0` and the inputs `x1` of those rows, the three weight
  matrices whole, the three biases as one-row blocks. Row `r` of the tile is row `n r` of the whole arrays. Then
  row `r` of what the body stores is row `n r` of the whole result (`wholeLogits`):
  * through the three dense layers, the tile's `relu (x · w + b)` at `(r, q)` is the whole layer's at `(n r, q)`
    — a matrix unit's product of narrowed operands into zeros is, over the extended reals, the textbook sum the
    host's product is, and a row of the product depends on that row of the left operand only (`coeffs_row`);
  * the sign constraint acts on each row's twelve coefficients by themselves, and `min v 0 = -(max (-v) 0)`;
  * a logit is a function of one row's features and constrained coefficients (`tile_row`).
-/
import proofs.«120099_j45483703665013_1_alg».proof.Proof.Gen.KernelIdeal.Skeleton
import proofs.«120099_j45483703665013_1_alg».proof.Proof.Whole
import proofs.«120099_j45483703665013_1_alg».proof.Proof.LibReluRows
import proofs.«120099_j45483703665013_1_alg».proof.Proof.LibTasteLogits

noncomputable section

namespace Cert.Taste

open Idealize.ShloMosaic Idealize.ShloMosaic.ValueIdx Cert.Lib

/-! ## The six products are plain matrix products -/

theorem tileDot1 : PlainDot Cert.KernelIdeal.dot_S4096x64_S64x128_S4096x128_1_0_0_1_n_n :=
  PlainDot.of_axes _ rfl rfl rfl rfl rfl rfl
theorem tileDot2 : PlainDot Cert.KernelIdeal.dot_S4096x128_S128x128_S4096x128_1_0_0_1_n_n :=
  PlainDot.of_axes _ rfl rfl rfl rfl rfl rfl
theorem tileDot3 : PlainDot Cert.KernelIdeal.dot_S4096x128_S128x12_S4096x12_1_0_0_1_n_n :=
  PlainDot.of_axes _ rfl rfl rfl rfl rfl rfl
theorem wholeDot1 : PlainDot Cert.ReferenceIdeal.dot_S524288x64_S64x128_S524288x128_1_0_0_1_n_n :=
  PlainDot.of_axes _ rfl rfl rfl rfl rfl rfl
theorem wholeDot2 : PlainDot Cert.ReferenceIdeal.dot_S524288x128_S128x128_S524288x128_1_0_0_1_n_n :=
  PlainDot.of_axes _ rfl rfl rfl rfl rfl rfl
theorem wholeDot3 : PlainDot Cert.ReferenceIdeal.dot_S524288x128_S128x12_S524288x12_1_0_0_1_n_n :=
  PlainDot.of_axes _ rfl rfl rfl rfl rfl rfl

/-! ## A tile's rows -/

variable (x0 : FVec Ideal ⟨2, ![4096, 9]⟩ .f32) (x1 : FVec Ideal ⟨2, ![4096, 64]⟩ .f32)
  (w1 : FVec Ideal ⟨2, ![64, 128]⟩ .f32) (r1 : FVec Ideal ⟨2, ![1, 128]⟩ .f32)
  (w2 : FVec Ideal ⟨2, ![128, 128]⟩ .f32) (r2 : FVec Ideal ⟨2, ![1, 128]⟩ .f32)
  (w3 : FVec Ideal ⟨2, ![128, 12]⟩ .f32) (r3 : FVec Ideal ⟨2, ![1, 12]⟩ .f32)
  (X : FVec Ideal ⟨2, ![524288, 9]⟩ .f32) (Z : FVec Ideal ⟨2, ![524288, 64]⟩ .f32)
  (c1 : FVec Ideal ⟨1, ![128]⟩ .f32) (c2 : FVec Ideal ⟨1, ![128]⟩ .f32) (c3 : FVec Ideal ⟨1, ![12]⟩ .f32)
  (n : Fin 4096 → Fin 524288)

/-- The tile's twelve coefficients at `(r, q)` are the whole array's at `(n r, q)`: three dense layers, row by row. -/
theorem coeffs_row (hz : ∀ r k, x1 (ix2 r k) = Z (ix2 (n r) k))
    (hb1 : ∀ q : Fin 128, r1 (ix2 (0 : Fin 1) q) = c1 (ix1 q)) (hb2 : ∀ q : Fin 128, r2 (ix2 (0 : Fin 1) q) = c2 (ix1 q))
    (hb3 : ∀ q : Fin 12, r3 (ix2 (0 : Fin 1) q) = c3 (ix1 q)) (r : Fin 4096) (q : Fin 12) :
    Cert.KernelIdeal.Gen.k0_pay2 (F := Ideal) x1 w1 w2 w3 r1 r2 r3 (ix2 r q)
      = coeffs (hidden2 (hidden1 Z w1 c1) w2 c2) w3 c3 (ix2 (n r) q) := by
  unfold Cert.KernelIdeal.Gen.k0_pay2 coeffs
  exact affine_rows tileDot3 wholeDot3 _ _ w3 r3 c3 n (fun r k => by
    unfold hidden2
    exact relu_affine_rows tileDot2 wholeDot2 _ _ w2 r2 c2 n (fun r k => by
      unfold hidden1
      exact relu_affine_rows tileDot1 wholeDot1 x1 Z w1 r1 c1 n hz hb1 _ _ _ _ _ _ r k) hb2 _ _ _ _ _ _ r k) hb3 _ _ _ _ _ r q

/-- ROW `r` OF WHAT THE BODY STORES is row `n r` of the whole result. -/
theorem tile_row (hx : ∀ r k, x0 (ix2 r k) = X (ix2 (n r) k)) (hz : ∀ r k, x1 (ix2 r k) = Z (ix2 (n r) k))
    (hb1 : ∀ q : Fin 128, r1 (ix2 (0 : Fin 1) q) = c1 (ix1 q)) (hb2 : ∀ q : Fin 128, r2 (ix2 (0 : Fin 1) q) = c2 (ix1 q))
    (hb3 : ∀ q : Fin 12, r3 (ix2 (0 : Fin 1) q) = c3 (ix1 q)) (r : Fin 4096) (j : Fin 3) :
    Cert.KernelIdeal.Gen.k0_pay1 (F := Ideal) x0 (Cert.KernelIdeal.Gen.k0_pay2 x1 w1 w2 w3 r1 r2 r3)
        (Cert.KernelIdeal.Gen.k0_pay3 x1 w1 w2 w3 r1 r2 r3) (Cert.KernelIdeal.Gen.k0_pay4 x1 w1 w2 w3 r1 r2 r3)
        (Cert.KernelIdeal.Gen.k0_pay5 x1 w1 w2 w3 r1 r2 r3) (Cert.KernelIdeal.Gen.k0_pay6 (F := Ideal)) (ix2 r j)
      = wholeLogits X Z w1 c1 w2 c2 w3 c3 (ix2 (n r) j) := by
  unfold Cert.KernelIdeal.Gen.k0_pay1 Cert.KernelIdeal.Gen.k0_pay3 Cert.KernelIdeal.Gen.k0_pay4 Cert.KernelIdeal.Gen.k0_pay5
    Cert.KernelIdeal.Gen.k0_pay6 wholeLogits logits
  refine (Taste.kernel_logits _ _ _ _ _ _ _ _ _ _ _ _ r j).trans (Eq.trans ?_ (Taste.host_logits _ _ _ _ _ _ _ _ _ _ _ (n r) j).symm)
  refine congrArg₂ (fun a b => Taste.logit a b j) (funext fun k => hx r k) (funext fun k => ?_)
  unfold constrainedCoeffs
  refine (Taste.kernel_constrained _ _ _ _ _ _ r k).trans (Eq.trans ?_ (Taste.host_constrained _ _ _ _ _ _ _ _ (n r) k).symm)
  exact congrArg (fun b => Taste.constrained b k) (funext fun q => coeffs_row x1 w1 r1 w2 r2 w3 r3 Z c1 c2 c3 n hz hb1 hb2 hb3 r q)

end Cert.Taste

end
-- ==== Proof.Blocks.lean ====
/-
  From the tiles to the array: what the kernel's run leaves in its result array, at the ideal values.

  The grid has 128 points; point `t` works on rows `4096 t … 4096 t + 4095`: its blocks of the features and of the
  inputs are those rows of the argument arrays, its weight blocks are the whole weight matrices, and its bias blocks
  are the bias vectors as one row (the program reshapes each bias `[M]` to `[1, M]` before the call). So what point
  `t` writes back is rows `4096 t …` of the whole result (`TileRows`: `tile_row`), the 128 blocks tile the
  `[524288, 3]` array, and the array ends holding the whole result of the argument arrays.
-/
import proofs.«120099_j45483703665013_1_alg».proof.Proof.Gen.KernelIdeal.Value
import proofs.«120099_j45483703665013_1_alg».proof.Proof.TileRows
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Tiles

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 128 points: the features', the inputs' and the result's blocks move
    with the point along the rows; the weights' and the biases' blocks stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row `r` of point `t`'s tile is row `4096 t + r` of the arrays. -/
def rowOf (t : Fin cfg0.N) (r : Fin 4096) : Fin 524288 :=
  ⟨4096 * t.val + r.val, by have ht : t.val < 128 := lt_of_lt_of_eq t.isLt N_0; have := r.isLt; omega⟩

/-! ## The argument arrays, and each window's block at a point -/

abbrev argX (c : Dev nD) : FVec Ideal ⟨2, ![524288, 9]⟩ .f32 := m ((c : Thread nD τ).loc main_arg0)
abbrev argZ (c : Dev nD) : FVec Ideal ⟨2, ![524288, 64]⟩ .f32 := m ((c : Thread nD τ).loc main_arg1)
abbrev argW1 (c : Dev nD) : FVec Ideal ⟨2, ![64, 128]⟩ .f32 := m ((c : Thread nD τ).loc main_arg2)
abbrev argC1 (c : Dev nD) : FVec Ideal ⟨1, ![128]⟩ .f32 := m ((c : Thread nD τ).loc main_arg3)
abbrev argW2 (c : Dev nD) : FVec Ideal ⟨2, ![128, 128]⟩ .f32 := m ((c : Thread nD τ).loc main_arg4)
abbrev argC2 (c : Dev nD) : FVec Ideal ⟨1, ![128]⟩ .f32 := m ((c : Thread nD τ).loc main_arg5)
abbrev argW3 (c : Dev nD) : FVec Ideal ⟨2, ![128, 12]⟩ .f32 := m ((c : Thread nD τ).loc main_arg6)
abbrev argC3 (c : Dev nD) : FVec Ideal ⟨1, ![12]⟩ .f32 := m ((c : Thread nD τ).loc main_arg7)

abbrev blkX (c : Dev nD) (t : Fin cfg0.N) : FVec Ideal ⟨2, ![4096, 9]⟩ .f32 := iblk m c 0 t
abbrev blkZ (c : Dev nD) (t : Fin cfg0.N) : FVec Ideal ⟨2, ![4096, 64]⟩ .f32 := iblk m c 1 t
abbrev blkW1 (c : Dev nD) (t : Fin cfg0.N) : FVec Ideal ⟨2, ![64, 128]⟩ .f32 := iblk m c 2 t
abbrev blkC1 (c : Dev nD) (t : Fin cfg0.N) : FVec Ideal ⟨2, ![1, 128]⟩ .f32 := iblk m c 3 t
abbrev blkW2 (c : Dev nD) (t : Fin cfg0.N) : FVec Ideal ⟨2, ![128, 128]⟩ .f32 := iblk m c 4 t
abbrev blkC2 (c : Dev nD) (t : Fin cfg0.N) : FVec Ideal ⟨2, ![1, 128]⟩ .f32 := iblk m c 5 t
abbrev blkW3 (c : Dev nD) (t : Fin cfg0.N) : FVec Ideal ⟨2, ![128, 12]⟩ .f32 := iblk m c 6 t
abbrev blkC3 (c : Dev nD) (t : Fin cfg0.N) : FVec Ideal ⟨2, ![1, 12]⟩ .f32 := iblk m c 7 t

/-- Row `r` of the features' block at `t` is row `4096 t + r` of the features. -/
theorem blkX_apply (c : Dev nD) (t : Fin cfg0.N) (r : Fin 4096) (k : Fin 9) :
    blkX m c t (ix2 r k) = argX m c (ix2 (rowOf t r) k) := by
  obtain ⟨e0, e1, -⟩ := idx_facts t
  show iblk m c 0 t (ix2 r k) = _
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 4096 + 1 * r.val = 4096 * t.val + r.val; rw [e0]; omega
  | ⟨1, _⟩ => show win0_0.index t (1 : Fin 2) * 9 + 1 * k.val = k.val; rw [e1]; omega

/-- Row `r` of the inputs' block at `t` is row `4096 t + r` of the inputs. -/
theorem blkZ_apply (c : Dev nD) (t : Fin cfg0.N) (r : Fin 4096) (k : Fin 64) :
    blkZ m c t (ix2 r k) = argZ m c (ix2 (rowOf t r) k) := by
  obtain ⟨-, -, e0, e1, -⟩ := idx_facts t
  show iblk m c 1 t (ix2 r k) = _
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 4096 + 1 * r.val = 4096 * t.val + r.val; rw [e0]; omega
  | ⟨1, _⟩ => show win0_1.index t (1 : Fin 2) * 64 + 1 * k.val = k.val; rw [e1]; omega

/-- Each weight block is the whole weight matrix. -/
theorem blkW1_eq (c : Dev nD) (t : Fin cfg0.N) : blkW1 m c t = argW1 m c := by
  obtain ⟨-, -, -, -, e0, e1, -⟩ := idx_facts t
  funext y
  obtain ⟨p, q, rfl⟩ : ∃ (p : Fin 64) (q : Fin 128), y = ix2 p q := ⟨y 0, y 1, eq_ix2 y⟩
  show iblk m c 2 t (ix2 p q) = _
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 64 + 1 * p.val = p.val; rw [e0]; omega
  | ⟨1, _⟩ => show win0_2.index t (1 : Fin 2) * 128 + 1 * q.val = q.val; rw [e1]; omega

theorem blkW2_eq (c : Dev nD) (t : Fin cfg0.N) : blkW2 m c t = argW2 m c := by
  obtain ⟨-, -, -, -, -, -, -, -, e0, e1, -⟩ := idx_facts t
  funext y
  obtain ⟨p, q, rfl⟩ : ∃ (p : Fin 128) (q : Fin 128), y = ix2 p q := ⟨y 0, y 1, eq_ix2 y⟩
  show iblk m c 4 t (ix2 p q) = _
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t (0 : Fin 2) * 128 + 1 * p.val = p.val; rw [e0]; omega
  | ⟨1, _⟩ => show win0_4.index t (1 : Fin 2) * 128 + 1 * q.val = q.val; rw [e1]; omega

theorem blkW3_eq (c : Dev nD) (t : Fin cfg0.N) : blkW3 m c t = argW3 m c := by
  obtain ⟨-, -, -, -, -, -, -, -, -, -, -, -, e0, e1, -⟩ := idx_facts t
  funext y
  obtain ⟨p, q, rfl⟩ : ∃ (p : Fin 128) (q : Fin 12), y = ix2 p q := ⟨y 0, y 1, eq_ix2 y⟩
  show iblk m c 6 t (ix2 p q) = _
  unfold iblk
  rw [View.read_apply]
  show V m c main_arg6 _ = _
  rw [V_main_arg6]
  refine congrArg (m ((c : Thread nD τ).loc main_arg6)) (funext fun a => Fin.ext ?_)
  match a with
  | ⟨0, _⟩ => show win0_6.index t (0 : Fin 2) * 128 + 1 * p.val = p.val; rw [e0]; omega
  | ⟨1, _⟩ => show win0_6.index t (1 : Fin 2) * 12 + 1 * q.val = q.val; rw [e1]; omega

/-- The arrays the program reshapes the biases into, as the call finds them: each bias as one row. -/
theorem V_main_v0 (c : Dev nD) : (V m c main_v0 : S1x128.Idx → EReal) = shapeCast S1x128 (argC1 m c) shapeCasts_S128_S1x128 := by
  dsimp only [V, hostOps0]; after_results; rfl
theorem V_main_v1 (c : Dev nD) : (V m c main_v1 : S1x128.Idx → EReal) = shapeCast S1x128 (argC2 m c) shapeCasts_S128_S1x128 := by
  dsimp only [V, hostOps0]; after_results; rfl
theorem V_main_v2 (c : Dev nD) : (V m c main_v2 : S1x12.Idx → EReal) = shapeCast S1x12 (argC3 m c) shapeCasts_S12_S1x12 := by
  dsimp only [V, hostOps0]; after_results; rfl

/-- Each bias block's one row is the bias vector. -/
theorem blkC1_apply (c : Dev nD) (t : Fin cfg0.N) (q : Fin 128) : blkC1 m c t (ix2 (0 : Fin 1) q) = argC1 m c (ix1 q) := by
  obtain ⟨-, -, -, -, -, -, e0, e1, -⟩ := idx_facts t
  show iblk m c 3 t (ix2 (0 : Fin 1) q) = _
  unfold iblk
  rw [View.read_apply]
  show V m c main_v0 _ = _
  rw [V_main_v0]
  refine Eq.trans (congrArg _ (funext fun a => Fin.ext ?_)) (shapeCast_a_1a_apply (argC1 m c) shapeCasts_S128_S1x128 (0 : Fin 1) q)
  match a with
  | ⟨0, _⟩ => show win0_3.index t (0 : Fin 2) * 1 + 1 * 0 = 0; rw [e0]
  | ⟨1, _⟩ => show win0_3.index t (1 : Fin 2) * 128 + 1 * q.val = q.val; rw [e1]; omega

theorem blkC2_apply (c : Dev nD) (t : Fin cfg0.N) (q : Fin 128) : blkC2 m c t (ix2 (0 : Fin 1) q) = argC2 m c (ix1 q) := by
  obtain ⟨-, -, -, -, -, -, -, -, -, -, e0, e1, -⟩ := idx_facts t
  show iblk m c 5 t (ix2 (0 : Fin 1) q) = _
  unfold iblk
  rw [View.read_apply]
  show V m c main_v1 _ = _
  rw [V_main_v1]
  refine Eq.trans (congrArg _ (funext fun a => Fin.ext ?_)) (shapeCast_a_1a_apply (argC2 m c) shapeCasts_S128_S1x128 (0 : Fin 1) q)
  match a with
  | ⟨0, _⟩ => show win0_5.index t (0 : Fin 2) * 1 + 1 * 0 = 0; rw [e0]
  | ⟨1, _⟩ => show win0_5.index t (1 : Fin 2) * 128 + 1 * q.val = q.val; rw [e1]; omega

theorem blkC3_apply (c : Dev nD) (t : Fin cfg0.N) (q : Fin 12) : blkC3 m c t (ix2 (0 : Fin 1) q) = argC3 m c (ix1 q) := by
  obtain ⟨-, -, -, -, -, -, -, -, -, -, -, -, -, -, e0, e1, -⟩ := idx_facts t
  show iblk m c 7 t (ix2 (0 : Fin 1) q) = _
  unfold iblk
  rw [View.read_apply]
  show V m c main_v2 _ = _
  rw [V_main_v2]
  refine Eq.trans (congrArg _ (funext fun a => Fin.ext ?_)) (shapeCast_a_1a_apply (argC3 m c) shapeCasts_S12_S1x12 (0 : Fin 1) q)
  match a with
  | ⟨0, _⟩ => show win0_7.index t (0 : Fin 2) * 1 + 1 * 0 = 0; rw [e0]
  | ⟨1, _⟩ => show win0_7.index t (1 : Fin 2) * 12 + 1 * q.val = q.val; rw [e1]; omega

/-! ## What each point writes back, and the array -/

/-- The whole result of the argument arrays. -/
abbrev result (c : Dev nD) : Buf (Elt Ideal) ((c : Thread nD τ).loc main_v3) :=
  Cert.Taste.wholeLogits (argX m c) (argZ m c) (argW1 m c) (argC1 m c) (argW2 m c) (argC2 m c) (argW3 m c) (argC3 m c)

/-- WHAT POINT `t` WRITES BACK is rows `4096 t …` of the whole result. -/
theorem flushed_eq (c : Dev nD) (t : Fin cfg0.N) :
    (dats m 0 c).flushed 8 t = ((cfg0.win 8).blk t).view.read (Elt Ideal) (result m c) := by
  obtain ⟨-, -, -, -, -, -, -, -, -, -, -, -, -, -, -, -, e0, e1⟩ := idx_facts t
  rw [flushed8]
  unfold out0_8
  rw [View.canon_unit_zero hz]
  simp only [View.ld_unit_zero (S := S4096x9) hz, View.ld_unit_zero (S := S4096x64) hz, View.ld_unit_zero (S := S64x128) hz,
    View.ld_unit_zero (S := S128x128) hz, View.ld_unit_zero (S := S128x12) hz, View.ld_unit_zero (S := S1x128) hz,
    View.ld_unit_zero (S := S1x12) hz]
  funext y
  obtain ⟨r, j, rfl⟩ : ∃ (r : Fin 4096) (j : Fin 3), y = ix2 r j := ⟨y 0, y 1, eq_ix2 y⟩
  show k0_pay1 (F := Ideal) (blkX m c t) (k0_pay2 (blkZ m c t) (blkW1 m c t) (blkW2 m c t) (blkW3 m c t) (blkC1 m c t) (blkC2 m c t) (blkC3 m c t))
      (k0_pay3 (blkZ m c t) (blkW1 m c t) (blkW2 m c t) (blkW3 m c t) (blkC1 m c t) (blkC2 m c t) (blkC3 m c t))
      (k0_pay4 (blkZ m c t) (blkW1 m c t) (blkW2 m c t) (blkW3 m c t) (blkC1 m c t) (blkC2 m c t) (blkC3 m c t))
      (k0_pay5 (blkZ m c t) (blkW1 m c t) (blkW2 m c t) (blkW3 m c t) (blkC1 m c t) (blkC2 m c t) (blkC3 m c t))
      (k0_pay6 (F := Ideal)) (ix2 r j)
    = result m c (((cfg0.win 8).blk t).view.emb (ix2 r j))
  have hemb : ((cfg0.win 8).blk t).view.emb (ix2 r j) = (ix2 (rowOf t r) j : S524288x3.Idx) := funext fun a => Fin.ext (by
    match a with
    | ⟨0, _⟩ => show win0_8.index t (0 : Fin 2) * 4096 + 1 * r.val = 4096 * t.val + r.val; rw [e0]; omega
    | ⟨1, _⟩ => show win0_8.index t (1 : Fin 2) * 3 + 1 * j.val = j.val; rw [e1]; omega)
  rw [hemb, blkW1_eq, blkW2_eq, blkW3_eq]
  exact Cert.Taste.tile_row (blkX m c t) (blkZ m c t) (argW1 m c) (blkC1 m c t) (argW2 m c) (blkC2 m c t) (argW3 m c) (blkC3 m c t)
    (argX m c) (argZ m c) (argC1 m c) (argC2 m c) (argC3 m c) (rowOf t)
    (blkX_apply m c t) (blkZ_apply m c t) (blkC1_apply m c t) (blkC2_apply m c t) (blkC3_apply m c t) r j

/-- An index of the array is in point `t`'s block iff each coordinate is in the block's range on its axis. -/
theorem mem_blk (t : Fin cfg0.N) (i : S524288x3.Idx) :
    i ∈ ((cfg0.win 8).blk t).view.set ↔ ∀ a : Fin 2, win0_8.index t a * S4096x3.size a ≤ (i a).val ∧ (i a).val < win0_8.index t a * S4096x3.size a + S4096x3.size a := by
  show i ∈ ((View.whole main_v3).slice (win0_8.rect t)).set ↔ _
  rw [View.set_slice_whole, Rect.mem_set_unit]
  exact Iff.rfl

/-- Every row is in the block of the point its number divided by 4096 names. -/
theorem cover (i : S524288x3.Idx) : ∃ t : Fin cfg0.N, (cfg0.win 8).flush t = true ∧ i ∈ ((cfg0.win 8).blk t).view.set := by
  have hi0 : (i 0).val < 524288 := (i 0).isLt
  have hi1 : (i 1).val < 3 := (i 1).isLt
  let t : Fin cfg0.N := ⟨(i 0).val / 4096, lt_of_lt_of_eq (by omega : (i 0).val / 4096 < 128) N_0.symm⟩
  obtain ⟨-, -, -, -, -, -, -, -, -, -, -, -, -, -, -, -, e0, e1⟩ := idx_facts t
  have ht : t.val = (i 0).val / 4096 := rfl
  refine ⟨t, flush0_8 t, ?_⟩
  rw [mem_blk]
  intro a
  match a with
  | ⟨0, _⟩ => show win0_8.index t (0 : Fin 2) * 4096 ≤ (i 0).val ∧ (i 0).val < win0_8.index t (0 : Fin 2) * 4096 + 4096; rw [e0, ht]; omega
  | ⟨1, _⟩ => show win0_8.index t (1 : Fin 2) * 3 ≤ (i 1).val ∧ (i 1).val < win0_8.index t (1 : Fin 2) * 3 + 3; rw [e1]; omega

/-- THE ARRAY after the run is the whole result of the argument arrays. -/
theorem final (c : Dev nD) : (dats m 0 c).arrAt 8 cfg0.N = result m c :=
  (dats m 0 c).arrAt_eq_of_cover 8 (result m c) (fun t _ => flushed_eq m c t) cover

/-- The run, read: the result array at the whole result of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Tiles

end
-- ==== Proof.lean ====
/-
  The taste-parameter network against its plain reference, over the extended reals.

  Both programs map features `x [524288, 9]`, inputs `z [524288, 64]` and the weights and biases of three dense
  layers to three logits per row: two hidden layers `relu (· W + b)`, twelve coefficients per row, the coefficients of
  columns 0-5 and 7-8 capped at zero, and for each of three segments the sum of feature times coefficient over the
  segment's three columns plus an intercept. The kernel does this on 128 tiles of 4096 rows, its matrix products on
  operands narrowed to bf16 and accumulated into zeros, the cap as `min v 0`; the reference does it on whole arrays,
  the cap as `-(relu (-v))`.

  At the ideal values narrowing is the identity, a product accumulated into zeros is the textbook sum, and
  `-(max (-v) 0) = min v 0` on every extended real; every step is a function of one row, so tile `t`'s row `r` is
  the whole result's row `4096 t + r` (`Proof/TileRows.lean`), the tiles cover the array (`Proof/Blocks.lean`), and
  the reference's fifty host operations, read back in five stretches, leave the same whole-array function (`Proof/RefStages.lean`). No step uses
  that the inputs are finite. The ideal pass rewrote nothing, so `preserves` asks nothing.
-/
import proofs.«120099_j45483703665013_1_alg».proof.Defs
import proofs.«120099_j45483703665013_1_alg».proof.Proof.Gen.Kernel
import proofs.«120099_j45483703665013_1_alg».proof.Proof.Gen.Kernel.Skeleton
import proofs.«120099_j45483703665013_1_alg».proof.Proof.Gen.Kernel.Launch
import proofs.«120099_j45483703665013_1_alg».proof.Proof.Gen.Kernel.Points
import proofs.«120099_j45483703665013_1_alg».proof.Proof.Gen.Kernel.Frame
import proofs.«120099_j45483703665013_1_alg».proof.Proof.Gen.KernelIdeal
import proofs.«120099_j45483703665013_1_alg».proof.Proof.Gen.KernelIdeal.Skeleton
import proofs.«120099_j45483703665013_1_alg».proof.Proof.Gen.KernelIdeal.Launch
import proofs.«120099_j45483703665013_1_alg».proof.Proof.Gen.KernelIdeal.Points
import proofs.«120099_j45483703665013_1_alg».proof.Proof.Gen.KernelIdeal.Frame
import proofs.«120099_j45483703665013_1_alg».proof.Proof.Gen.ReferenceIdeal
import proofs.«120099_j45483703665013_1_alg».proof.Proof.Gen.Pre_finite_inputs
import proofs.«120099_j45483703665013_1_alg».proof.Proof.Gen.KernelIdeal.Value
import proofs.«120099_j45483703665013_1_alg».proof.Proof.RefStages
import proofs.«120099_j45483703665013_1_alg».proof.Proof.Blocks
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Stages.run (F := Ideal) m ρ)

/-- Both runs end with the result array at the whole-array function of arguments that agree. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Stages.run (F := Ideal) m' ρ')
  obtain ⟨a0, a1, a2, a3, a4, a5, a6, a7⟩ := hagree c
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
